-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v29 : IVec S_ 1) (main_v33 : IVec S800000 1) (main_c_11 : IVec S_ 1) : IVec S_ 1 :=
  let main_v34 : IVec S_ 1 := (fun x v => Host.reduce IntOp.andi x v reducesTo_S800000_S_d0 h_S_) main_v33 main_c_11
  let main_v35 : IVec S_ 1 := andi main_v29 main_v34
  main_v35

def fn_part1 {F : FTy → Type} [FloatOps F] (main_arg1 : IVec S2x800000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  let main_v30 : IVec S1x800000 32 := (extractStridedSlice S1x800000 ![0, 0] · slices_S2x800000_S1x800000_0_0) main_arg1
  let main_v31 : IVec S800000 32 := shapeCast S800000 main_v30 shapeCasts_S1x800000_S800000
  let main_c_10 : IVec S_ 32 := constantI S_ 32 50000#32
  let main_v32 : IVec S800000 32 := broadcastInDim S800000 ![] bcast_S_S800000 main_c_10
  let main_v33 : IVec S800000 1 := cmpi .slt main_v31 main_v32
  let main_c_11 : IVec S_ 1 := constantI S_ 1 1#1
  fn_part2 (F := F) main_v29 main_v33 main_c_11

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S51200x128 : Shape := ⟨2, ![51200, 128]⟩
abbrev S51200 : Shape := ⟨1, ![51200]⟩
abbrev S51200x1 : Shape := ⟨2, ![51200, 1]⟩
abbrev S51200x256 : Shape := ⟨2, ![51200, 256]⟩
abbrev S2048x128 : Shape := ⟨2, ![2048, 128]⟩
abbrev S2048x1 : Shape := ⟨2, ![2048, 1]⟩
abbrev S2048x256 : Shape := ⟨2, ![2048, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 75
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S_, .f32⟩
  | .hbm, ⟨32, _⟩ => ⟨S51200x128, .f32⟩
  | .hbm, ⟨33, _⟩ => ⟨S_, .i32⟩
  | .hbm, ⟨34, _⟩ => ⟨S_, .f32⟩
  | .hbm, ⟨35, _⟩ => ⟨S51200, .f32⟩
  | .hbm, ⟨36, _⟩ => ⟨S51200x1, .f32⟩
  | .hbm, ⟨37, _⟩ => ⟨S51200x256, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x256, .f32⟩
  | .hbm, ⟨47, _⟩ => ⟨S_, .f32⟩
  | .hbm, ⟨48, _⟩ => ⟨S51200x256, .f32⟩
  | .hbm, ⟨49, _⟩ => ⟨S850000x1, .i32⟩
  | .hbm, ⟨50, _⟩ => ⟨S51200x256, .f32⟩
  | .hbm, ⟨51, _⟩ => ⟨S1x256, .f32⟩
  | .hbm, ⟨52, _⟩ => ⟨S51200x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S_, .f32⟩
  | .hbm, ⟨63, _⟩ => ⟨S51200x128, .f32⟩
  | .hbm, ⟨64, _⟩ => ⟨S850000x1, .i32⟩
  | .hbm, ⟨65, _⟩ => ⟨S51200x128, .f32⟩
  | .hbm, ⟨66, _⟩ => ⟨S51200x128, .f32⟩
  | .hbm, ⟨67, _⟩ => ⟨S51200x128, .f32⟩
  | .hbm, ⟨68, _⟩ => ⟨S1x128, .f32⟩
  | .hbm, ⟨69, _⟩ => ⟨S51200x128, .f32⟩
  | .hbm, ⟨70, _⟩ => ⟨S51200x128, .f32⟩
  | .hbm, ⟨71, _⟩ => ⟨S_, .f32⟩
  | .hbm, ⟨72, _⟩ => ⟨S51200x128, .f32⟩
  | .hbm, ⟨73, _⟩ => ⟨S51200x128, .f32⟩
  | .hbm, ⟨74, _⟩ => ⟨S50000x128, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S2048x1, .f32⟩
  | .local _ .vmem, ⟨4, _⟩ => ⟨S2048x1, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S1x256, .f32⟩
  | .local _ .vmem, ⟨12, _⟩ => ⟨S256x128, .f32⟩
  | .local _ .vmem, ⟨13, _⟩ => ⟨S2048x128, .f32⟩
  | .local _ .vmem, ⟨14, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_call1_v0 : Ref sig .tc := ⟨.hbm, 31, rfl⟩
abbrev main_v17 : Ref sig .tc := ⟨.hbm, 32, rfl⟩
abbrev main_c_4 : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S50000x128_S51200x128_012000_000 : S50000x128.Pads (![0, 0] : Fin 2 → Nat) ![1200, 0] ![0, 0] S51200x128
  h_S_ : 0 < S_.numel
  pads_S50000_S51200_012000 : S50000.Pads (![0] : Fin 1 → Nat) ![1200] ![0] S51200
  shapeCasts_S51200_S51200x1 : S51200.ShapeCasts S51200x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  bcast_S_S51200x256 : S_.BroadcastsInDim S51200x256 (![] : Fin 0 → Fin S51200x256.rank)
  shapeCasts_S256_S1x256 : S256.ShapeCasts S1x256
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  broadcasts_S2048x1_S2048x128 : S2048x1.Broadcasts S2048x128
  bcast_S_S51200x128 : S_.BroadcastsInDim S51200x128 (![] : Fin 0 → Fin S51200x128.rank)
  bcast_S51200x1_S51200x128_0_1 : S51200x1.BroadcastsInDim S51200x128 (![0, 1] : Fin 2 → Fin S51200x128.rank)
  shapeCasts_S128_S1x128 : S128.ShapeCasts S1x128
  bcast_S1x128_S51200x128_0_1 : S1x128.BroadcastsInDim S51200x128 (![0, 1] : Fin 2 → Fin S51200x128.rank)
  slices_S51200x128_S50000x128_0_0 : S51200x128.Slices ![0, 0] S50000x128
  scatter_S50000_S850000x1_S850000_n_0_0_1_wf : ScatterDims.WF S50000 S850000x1 S850000 [] [0] [0] 1
  dot_S2048x128_S128x256_S2048x256_1_0_0_1_n_n_wf : DotDims.WF S2048x128 S128x256 S2048x256 [1] [0] [0] [1] [] []
  gather_S51200x256_S850000x1_S850000x256_1_0_n_n_0_1_1256_wf : GatherDims.WF S51200x256 S850000x1 S850000x256 [1] [0] [] [0] [] 1 ![1, 256]
  scatter_S51200x256_S850000x1_S850000x256_1_0_0_1_wf : ScatterDims.WF S51200x256 S850000x1 S850000x256 [1] [0] [0] 1
  dot_S2048x256_S256x128_S2048x128_1_0_0_1_n_n_wf : DotDims.WF S2048x256 S256x128 S2048x128 [1] [0] [0] [1] [] []
  gather_S51200x128_S850000x1_S850000x128_1_0_n_n_0_1_1128_wf : GatherDims.WF S51200x128 S850000x1 S850000x128 [1] [0] [] [0] [] 1 ![1, 128]
  scatter_S51200x128_S850000x1_S850000x128_1_0_0_1_wf : ScatterDims.WF S51200x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S51200x1.size a
  hwx0_2 : ∀ i : grid0.Coords, EltTy.bits .f32 = 32 ∨ (Rect.block (s := S51200x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S51200x256.size a
  hwx0_3 : ∀ i : grid0.Coords, EltTy.bits .f32 = 32 ∨ (Rect.block (s := S51200x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S51200x256.size a
  hwx1_0 : ∀ i : grid1.Coords, EltTy.bits .f32 = 32 ∨ (Rect.block (s := S51200x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S51200x1.size a
  hwx1_1 : ∀ i : grid1.Coords, EltTy.bits .f32 = 32 ∨ (Rect.block (s := S51200x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S51200x128.size a
  hwx1_4 : ∀ i : grid1.Coords, EltTy.bits .f32 = 32 ∨ (Rect.block (s := S51200x128) S2048x128.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S51200x256_S850000x1_S850000x256_1_0_n_n_0_1_1256 : GatherDims S51200x256 S850000x1 S850000x256 where
  offsetDims := [1]
  collapsedSliceDims := [0]
  operandBatchingDims := []
  startIndicesBatchingDims := []
  startIndexMap := [0]
  indexVectorDim := 1
  sliceSizes := ![1, 256]
  wf := gather_S51200x256_S850000x1_S850000x256_1_0_n_n_0_1_1256_wf
def scatter_S51200x256_S850000x1_S850000x256_1_0_0_1 : ScatterDims S51200x256 S850000x1 S850000x256 where
  updateWindowDims := [1]
  insertedWindowDims := [0]
  scatterDimsToOperandDims := [0]
  indexVectorDim := 1
  wf := scatter_S51200x256_S850000x1_S850000x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S51200x128_S850000x1_S850000x128_1_0_n_n_0_1_1128 : GatherDims S51200x128 S850000x1 S850000x128 where
  offsetDims := [1]
  collapsedSliceDims := [0]
  operandBatchingDims := []
  startIndicesBatchingDims := []
  startIndexMap := [0]
  indexVectorDim := 1
  sliceSizes := ![1, 128]
  wf := gather_S51200x128_S850000x1_S850000x128_1_0_n_n_0_1_1128_wf
def scatter_S51200x128_S850000x1_S850000x128_1_0_0_1 : ScatterDims S51200x128 S850000x1 S850000x128 where
  updateWindowDims := [1]
  insertedWindowDims := [0]
  scatterDimsToOperandDims := [0]
  indexVectorDim := 1
  wf := scatter_S51200x128_S850000x1_S850000x128_1_0_0_1_wf

abbrev win0_0 : Pipeline.Window sig grid0 :=
  Pipeline.Window.ofSpec (Memref.whole main_v17) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  Two-layer graph convolution with symmetric normalisation, as plain functions of node and edge indices over the
  extended reals. `s e` is the source row of edge `e`, `dst e` its destination word, `dis` the inverse square
  root of the degrees. The edges into node `i` are those whose destination word reads `i` as a signed integer.

  One arrangement scales each source row by `dis` before the sum over the incoming edges and the sum by `dis i`
  after it (`scaledOut`); the other multiplies every message by the edge weight `dis (s e) * dis (d e)`
  (`edgeOut`). For finite data they agree: a finite sum of reals distributes over a real factor.
-/
import Idealize.ShloMosaic.PureOps.Ideal
import Idealize.ShloMosaic.Lib.ValueIdx

noncomputable section

namespace Cert.Gcn

open Idealize.ShloMosaic

variable (x : Fin 50000 → Fin 128 → EReal) (W1 : Fin 128 → Fin 256 → EReal) (b1 : Fin 256 → EReal)
  (W2 : Fin 256 → Fin 128 → EReal) (b2 : Fin 128 → EReal) (dis : Fin 50000 → EReal)
  (s : Fin 850000 → Fin 50000) (dst : Fin 850000 → BitVec 32) (d : Fin 850000 → Fin 50000)

/-- The edges into node `i`: those whose destination word, read signed, is `i`. -/
def into (i : Fin 50000) : Finset (Fin 850000) :=
  Finset.univ.filter fun e => (dst e).toInt = (i.val : ℤ)

/-- Layer one's features of row `r`, scaled by `dis r`. -/
def scaledLin1 (r : Fin 50000) (k : Fin 256) : EReal := (∑ j : Fin 128, x r j * W1 j k) * dis r

/-- Layer one's activation at node `i` when the scaling is applied before and after the sum over incoming edges. -/
def scaledHid (i : Fin 50000) (k : Fin 256) : EReal :=
  max ((∑ e ∈ into dst i, scaledLin1 x W1 dis (s e) k) * dis i + b1 k) 0

/-- Layer two's features of row `r`, scaled by `dis r`. -/
def scaledLin2 (r : Fin 50000) (q : Fin 128) : EReal :=
  (∑ k : Fin 256, scaledHid x W1 b1 dis s dst r k * W2 k q) * dis r

/-- The result with the scaling applied before and after each sum over incoming edges. -/
def scaledOut (i : Fin 50000) (q : Fin 128) : EReal :=
  max ((∑ e ∈ into dst i, scaledLin2 x W1 b1 W2 dis s dst (s e) q) * dis i + b2 q) 0

/-- Layer one's activation at node `i` with every message weighted by `dis (s e) * dis (d e)`. -/
def edgeHid (i : Fin 50000) (k : Fin 256) : EReal :=
  max ((∑ e ∈ into dst i, (∑ j : Fin 128, x (s e) j * W1 j k) * (dis (s e) * dis (d e))) + b1 k) 0

/-- The result with every message weighted by `dis (s e) * dis (d e)`. -/
def edgeOut (i : Fin 50000) (q : Fin 128) : EReal :=
  max ((∑ e ∈ into dst i, (∑ k : Fin 256, edgeHid x W1 b1 dis s dst d (s e) k * W2 k q) * (dis (s e) * dis (d e))) + b2 q) 0

/-- An extended real that is a real number. -/
def IsR (v : EReal) : Prop := ∃ a : ℝ, v = (a : EReal)

theorem IsR.zero : IsR 0 := ⟨0, EReal.coe_zero.symm⟩

/-- A product of two reals is a real. -/
theorem IsR.mul {u v : EReal} (hu : IsR u) (hv : IsR v) : IsR (u * v) := by
  obtain ⟨a, rfl⟩ := hu
  obtain ⟨b, rfl⟩ := hv
  exact ⟨a * b, (EReal.coe_mul a b).symm⟩

/-- A sum of two reals is a real. -/
theorem IsR.add {u v : EReal} (hu : IsR u) (hv : IsR v) : IsR (u + v) := by
  obtain ⟨a, rfl⟩ := hu
  obtain ⟨b, rfl⟩ := hv
  exact ⟨a + b, (EReal.coe_add a b).symm⟩

/-- The larger of two reals is a real. -/
theorem IsR.max {u v : EReal} (hu : IsR u) (hv : IsR v) : IsR (max u v) := by
  rcases le_total u v with h | h
  · rw [max_eq_right h]; exact hv
  · rw [max_eq_left h]; exact hu

/-- A finite sum of reals is a real. -/
theorem IsR.sum {ι : Type*} (S : Finset ι) (f : ι → EReal) (hf : ∀ e ∈ S, IsR (f e)) :
    IsR (∑ e ∈ S, f e) := by
  classical
  induction S using Finset.induction_on with
  | empty => simpa using IsR.zero
  | insert a S ha ih =>
    rw [Finset.sum_insert ha]
    exact (hf a (Finset.mem_insert_self a S)).add (ih fun e he => hf e (Finset.mem_insert_of_mem he))

/-- A real factor distributes over a finite sum of reals. -/
theorem sum_mul_isR {ι : Type*} (S : Finset ι) (f : ι → EReal) (hf : ∀ e ∈ S, IsR (f e)) {t : EReal}
    (ht : IsR t) : (∑ e ∈ S, f e) * t = ∑ e ∈ S, f e * t := by
  classical
  induction S using Finset.induction_on with
  | empty => simp
  | insert a S ha ih =>
    have hS : ∀ e ∈ S, IsR (f e) := fun e he => hf e (Finset.mem_insert_of_mem he)
    rw [Finset.sum_insert ha, Finset.sum_insert ha, ← ih hS]
    obtain ⟨u, hu⟩ := hf a (Finset.mem_insert_self a S)
    obtain ⟨v, hv⟩ := IsR.sum S f hS
    obtain ⟨w, rfl⟩ := ht
    rw [hu, hv, ← EReal.coe_add, ← EReal.coe_mul, ← EReal.coe_mul, ← EReal.coe_mul, ← EReal.coe_add, add_mul]

/-- Layer one's features of a row, scaled by `dis` of that row, are real for finite data. -/
theorem isR_lin1 (hx : ∀ r j, IsR (x r j)) (hW1 : ∀ j k, IsR (W1 j k)) (hdis : ∀ r, IsR (dis r))
    (r : Fin 50000) (k : Fin 256) : IsR ((∑ j : Fin 128, x r j * W1 j k) * dis r) :=
  (IsR.sum _ _ fun j _ => (hx r j).mul (hW1 j k)).mul (hdis r)

/-- The two arrangements of layer one agree. -/
theorem scaledHid_eq_edgeHid (hx : ∀ r j, IsR (x r j)) (hW1 : ∀ j k, IsR (W1 j k))
    (hdis : ∀ r, IsR (dis r))
    (hd : ∀ (e : Fin 850000) (i : Fin 50000), (dst e).toInt = (i.val : ℤ) → d e = i)
    (i : Fin 50000) (k : Fin 256) :
    scaledHid x W1 b1 dis s dst i k = edgeHid x W1 b1 dis s dst d i k := by
  unfold scaledHid edgeHid scaledLin1
  rw [sum_mul_isR _ _ (fun e _ => isR_lin1 x W1 dis hx hW1 hdis (s e) k) (hdis i)]
  refine congrArg (fun z : EReal => max (z + b1 k) 0) ?_
  refine Finset.sum_congr rfl fun e he => ?_
  rw [hd e i (Finset.mem_filter.mp he).2, mul_assoc]

/-- Layer one's activation is real for finite data. -/
theorem isR_edgeHid (hx : ∀ r j, IsR (x r j)) (hW1 : ∀ j k, IsR (W1 j k)) (hb1 : ∀ k, IsR (b1 k))
    (hdis : ∀ r, IsR (dis r)) (i : Fin 50000) (k : Fin 256) :
    IsR (edgeHid x W1 b1 dis s dst d i k) := by
  unfold edgeHid
  refine IsR.max (IsR.add (IsR.sum _ _ fun e _ => ?_) (hb1 k)) IsR.zero
  exact (IsR.sum _ _ fun j _ => (hx (s e) j).mul (hW1 j k)).mul ((hdis (s e)).mul (hdis (d e)))

/-- For finite features, weights, first bias and `dis`, and `d e = i` on every edge into `i`, the two arrangements agree. -/
theorem scaledOut_eq_edgeOut
    (hx : ∀ r j, ∃ a : ℝ, x r j = (a : EReal)) (hW1 : ∀ j k, ∃ a : ℝ, W1 j k = (a : EReal))
    (hb1 : ∀ k, ∃ a : ℝ, b1 k = (a : EReal)) (hW2 : ∀ k q, ∃ a : ℝ, W2 k q = (a : EReal))
    (hdis : ∀ r, ∃ a : ℝ, dis r = (a : EReal))
    (hd : ∀ (e : Fin 850000) (i : Fin 50000), (dst e).toInt = (i.val : ℤ) → d e = i)
    (i : Fin 50000) (q : Fin 128) :
    scaledOut x W1 b1 W2 b2 dis s dst i q = edgeOut x W1 b1 W2 b2 dis s dst d i q := by
  have hH : ∀ r k, scaledHid x W1 b1 dis s dst r k = edgeHid x W1 b1 dis s dst d r k :=
    scaledHid_eq_edgeHid x W1 b1 dis s dst d hx hW1 hdis hd
  have hG : ∀ e ∈ into dst i,
      IsR ((∑ k : Fin 256, edgeHid x W1 b1 dis s dst d (s e) k * W2 k q) * dis (s e)) := fun e _ =>
    (IsR.sum _ _ fun k _ => (isR_edgeHid x W1 b1 dis s dst d hx hW1 hb1 hdis (s e) k).mul (hW2 k q)).mul
      (hdis (s e))
  unfold scaledOut edgeOut scaledLin2
  simp only [hH]
  rw [sum_mul_isR _ _ hG (hdis i)]
  refine congrArg (fun z : EReal => max (z + b2 q) 0) ?_
  refine Finset.sum_congr rfl fun e he => ?_
  rw [hd e i (Finset.mem_filter.mp he).2, mul_assoc]

end Cert.Gcn

end
-- ==== Proof.Shared.lean ====
/-
  The host prologue both programs share, as functions of the edge list alone: the source and destination words of
  the 850000 edges (the 800000 listed edges followed by one self loop per node), the degree of every node (the number of
  edges whose destination reads it), and `dis`, the inverse square root of the degree where it is positive and zero
  elsewhere.
-/
import Idealize.ShloMosaic.PureOps.Ideal
import Idealize.ShloMosaic.Lib.ValueIdx
import Idealize.ShloMosaic.Lib.ValueLayout
import Idealize.ShloMosaic.Lib.IdealHost

noncomputable section

namespace Cert.Gcn

open Idealize.ShloMosaic Idealize.ShloMosaic.ValueIdx

abbrev T2x800000 : Shape := ⟨2, ![2, 800000]⟩
abbrev T1x800000 : Shape := ⟨2, ![1, 800000]⟩
abbrev T800000 : Shape := ⟨1, ![800000]⟩
abbrev T50000 : Shape := ⟨1, ![50000]⟩
abbrev T850000 : Shape := ⟨1, ![850000]⟩
abbrev T850000x1 : Shape := ⟨2, ![850000, 1]⟩
abbrev T_ : Shape := ⟨0, ![]⟩

/-- Row `r` of the edge list (0: sources, 1: destinations) followed by the self loops `0, …, 49999`. -/
def endsOf (r : Fin 2) (a1 : IVec T2x800000 32)
    (h1 : T2x800000.Slices ![r.val, 0] T1x800000) (h2 : T1x800000.ShapeCasts T800000)
    (h3 : Shape.Concatenates [T800000, T50000] T850000 0) : IVec T850000 32 :=
  concatenate T850000 0 [⟨T800000, shapeCast T800000 (extractStridedSlice T1x800000 ![r.val, 0] a1 h1) h2⟩,
    ⟨T50000, iotaInDim T50000 32 0⟩] h3

/-- The dimension numbers of the degree count's scatter: one index per update, into the one axis. -/
def degDims : ScatterDims T50000 T850000x1 T850000 where
  updateWindowDims := []
  insertedWindowDims := [0]
  scatterDimsToOperandDims := [0]
  indexVectorDim := 1
  wf := by decide

/-- The degree of every node: one added per edge at its destination. -/
def degOf (dst : IVec T850000 32) (hb1 : T_.BroadcastsInDim T850000 (![] : Fin 0 → Fin T850000.rank))
    (hb2 : T_.BroadcastsInDim T50000 (![] : Fin 0 → Fin T50000.rank))
    (hb3 : T850000.BroadcastsInDim T850000x1 (![0] : Fin 1 → Fin T850000x1.rank)) : FVec Ideal T50000 .f32 :=
  Host.scatterAdd degDims (broadcastInDim T50000 ![] hb2 (constant T_ .f32 0x00000000#32))
    (broadcastInDim T850000x1 ![0] hb3 dst) (broadcastInDim T850000 ![] hb1 (constant T_ .f32 0x3F800000#32))

/-- `dis`: where the degree is positive its inverse square root (the degree first raised to at least 1e-12), else zero. -/
def disOf (deg : FVec Ideal T50000 .f32) (hb2 : T_.BroadcastsInDim T50000 (![] : Fin 0 → Fin T50000.rank)) :
    FVec Ideal T50000 .f32 :=
  select (cmpf .ogt deg (broadcastInDim T50000 ![] hb2 (constant T_ .f32 0x00000000#32)))
    (Host.rsqrt (maximumf deg (broadcastInDim T50000 ![] hb2 (constant T_ .f32 0x2B8CBCCC#32))))
    (broadcastInDim T50000 ![] hb2 (constant T_ .f32 0x00000000#32))

/-- Edge `e`'s word: a listed edge's entry of row `r`, or the self loop's node number. -/
theorem endsOf_apply (r : Fin 2) (a1 : IVec T2x800000 32) (h1 h2 h3) (e : Fin 850000) :
    endsOf r a1 h1 h2 h3 (ix1 e) =
      if h : e.val < 800000 then a1 (ix2 r ⟨e.val, h⟩) else BitVec.ofNat 32 (e.val - 800000) := by
  unfold endsOf
  by_cases h : e.val < 800000
  · -- a listed edge: the first piece at the same position, the unit axis put back, row `r` of the list
    rw [dif_pos h,
      concatenate_pair_apply_left (0 : Fin T850000.rank) _ _ h3 (ix1 e) rfl (ix1 (⟨e.val, h⟩ : Fin 800000))
        (fun b => by match b with | ⟨0, _⟩ => rfl),
      shapeCast_1a_a_apply,
      slice2_axis0_apply r.val a1 h1 (0 : Fin 1) ⟨e.val, h⟩ r (by simp)]
  · -- a self loop: the second piece at the position less 800000, where the iota reads the position
    have h' : e.val - 800000 < 50000 := by have := e.isLt; omega
    rw [dif_neg h,
      concatenate_pair_apply_right (0 : Fin T850000.rank) _ _ h3 (ix1 e) rfl rfl (ix1 (⟨e.val - 800000, h'⟩ : Fin 50000))
        (fun b hb => absurd (Fin.ext (by have hlt := b.isLt; change b.val < 1 at hlt; show b.val = 0; omega)) hb)
        (by show e.val - 800000 + 800000 = e.val; omega)]
    rfl

/-- The inverse square root of a positive extended real is a real number: `(√y)⁻¹` at a real `y > 0`, zero at `+∞`. -/
theorem rsqrt_real_of_pos (y : EReal) (hy : 0 < y) : ∃ a : ℝ, Ideal.rsqrt y = (a : EReal) := by
  induction y using EReal.rec with
  | bot => exact absurd hy (by simp)
  | top => exact ⟨0, by rw [Ideal.rsqrt_top]; rfl⟩
  | coe x =>
    have hx : 0 < x := by exact_mod_cast hy
    refine ⟨(Real.sqrt x)⁻¹, ?_⟩
    rw [Ideal.rsqrt_coe, if_neg (not_lt.2 hx.le), if_neg hx.ne']

/-- The floor under the degree, the pattern of about 1e-12, is a positive extended real. -/
theorem floor_pos : (0 : EReal) < Ideal.ofBits .f32 0x2B8CBCCC#32 := by
  simp [Ideal.ofBits, Ideal.ieee, -EReal.coe_mul]

/-- `dis` is finite whatever the degrees are: the degree raised to at least 1e-12 is positive, its inverse square root a
    real number (zero at +∞), and the other branch is zero. -/
theorem disOf_finite (deg : FVec Ideal T50000 .f32) (hb2) (r : Fin 50000) :
    ∃ a : ℝ, disOf deg hb2 (ix1 r) = (a : EReal) := by
  unfold disOf
  rw [select_apply]
  unfold Scalar.select
  split
  · -- the degree is positive: the inverse square root of the larger of the degree and the floor
    have e1 : ∀ v : FVec Ideal T50000 .f32, Host.rsqrt v (ix1 r) = Ideal.rsqrt (v (ix1 r)) := fun _ => rfl
    rw [e1, maximumf_apply, broadcastInDim_scalar_apply, constant_apply]
    exact rsqrt_real_of_pos _ (lt_of_lt_of_le floor_pos (le_max_right _ _))
  · -- elsewhere zero
    refine ⟨0, ?_⟩
    rw [broadcastInDim_scalar_apply, constant_apply, Ideal.ofBits_zero_f32]
    rfl

end Cert.Gcn

end
-- ==== Proof.PreFacts.lean ====
/-
  What the precondition says, read off its printed form: every entry of the four float arrays the proof needs finite is
  a real number, and every listed edge's source word, read signed, lies in `[0, 50000)`; with the self loops' node
  numbers, every one of the 850000 source words does.
-/
import proofs.«416440_j3178275799146_3_alg».proof.Pre_finite_inputs
import proofs.«416440_j3178275799146_3_alg».proof.Proof.Gen.Pre_finite_inputs
import proofs.«416440_j3178275799146_3_alg».proof.Proof.Shared
import Idealize.ShloMosaic.Lib.ReduceAll
import Idealize.ShloMosaic.Lib.StableHlo.Predicate
import Idealize.ShloMosaic.Lib.ValueIdx
import Idealize.ShloMosaic.Lib.ValueLayout
import Idealize.ShloMosaic.Lib.IdealHost

noncomputable section

namespace Cert.Gcn.PreFacts

open Idealize.ShloMosaic Idealize.ShloMosaic.ValueIdx
open Cert.Pre_finite_inputs

/-- The rank-0 shape has one index. -/
local instance : Subsingleton S_.Idx := ⟨fun a b => funext fun d => d.elim0⟩

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  unfold Ideal.cmp at h
  rw [StableHlo.Predicate.ofBool_eq_one_iff] at h
  simp only [decide_eq_true_eq] at h
  induction x using EReal.rec with
  | bot => simp at h
  | top => simp at h
  | coe r => exact ⟨r, rfl⟩

/-- An element of the "absolute value below `+∞`" test being 1 says the array's element there is a real number. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) :=
  real_of_abs_lt (a i) h

/-- Row 0 of the edge list, as the precondition spells it (a slice, then the unit axis dropped), at edge `e`. -/
theorem row0_apply (a1 : IVec S2x800000 32) (h1 : S2x800000.Slices ![0, 0] S1x800000) (h2 : S1x800000.ShapeCasts S800000)
    (e : Fin 800000) :
    shapeCast S800000 (extractStridedSlice S1x800000 ![0, 0] a1 h1) h2 (ix1 e) = a1 (ix2 (0 : Fin 2) e) := by
  rw [shapeCast_1a_a_apply, slice2_axis0_apply 0 a1 h1 (0 : Fin 1) e (0 : Fin 2) (by simp)]

/-- A word that compares signed at least zero reads, signed, at least zero. -/
theorem toInt_nonneg_of_sge (w : BitVec 32) (h : IntOp.cmpi .sge w 0#32 = 1#1) : 0 ≤ w.toInt := by
  unfold IntOp.cmpi at h
  rw [StableHlo.Predicate.ofBool_eq_one_iff] at h
  simp only [BitVec.sle, decide_eq_true_eq] at h
  simpa using h

/-- A word that compares signed below 50000 reads, signed, below 50000. -/
theorem toInt_lt_of_slt (w : BitVec 32) (h : IntOp.cmpi .slt w 50000#32 = 1#1) : w.toInt < 50000 := by
  unfold IntOp.cmpi at h
  rw [StableHlo.Predicate.ofBool_eq_one_iff] at h
  simp only [BitVec.slt, decide_eq_true_eq] at h
  have e : (50000#32 : BitVec 32).toInt = 50000 := StableHlo.Predicate.toInt_ofNat_small 50000 (by norm_num)
  rw [e] at h
  exact h

/-- The precondition all ones gives: the features, both weight matrices and the first bias are finite, and the listed
    edges' sources are in range. -/
theorem of_pre (a0 : FVec Ideal S50000x128 .f32) (a1 : IVec S2x800000 32) (a2 : FVec Ideal S128x256 .f32)
    (a3 : FVec Ideal S256 .f32) (a4 : FVec Ideal S256x128 .f32) (a5 : FVec Ideal S128 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal))
      ∧ ∀ e : Fin 800000, 0 ≤ (a1 (ix2 (0 : Fin 2) e)).toInt ∧ (a1 (ix2 (0 : Fin 2) e)).toInt < 50000 := by
  have e := congrFun h ValueIdx.ix0
  dsimp only [Cert.Pre_finite_inputs.fn, fn_part1, fn_part2] at e
  simp only [andi, IntOp.andi_eq_one] at e
  obtain ⟨⟨⟨⟨⟨⟨h0, h2⟩, h3⟩, h4⟩, h5⟩, hge⟩, hlt⟩ := e
  refine ⟨fun i => ?_, fun i => ?_, fun i => ?_, fun i => ?_, fun e => ⟨?_, ?_⟩⟩
  · exact real_of_test a0 _ i (Host.reduce_andi_all _ _ _ _ _ h0 i)
  · exact real_of_test a2 _ i (Host.reduce_andi_all _ _ _ _ _ h2 i)
  · exact real_of_test a3 _ i (Host.reduce_andi_all _ _ _ _ _ h3 i)
  · exact real_of_test a4 _ i (Host.reduce_andi_all _ _ _ _ _ h4 i)
  · have q := Host.reduce_andi_all _ _ _ _ _ hge (ix1 e)
    rw [← row0_apply a1 Facts.slices_S2x800000_S1x800000_0_0 Facts.shapeCasts_S1x800000_S800000 e]
    exact toInt_nonneg_of_sge _ q
  · have q := Host.reduce_andi_all _ _ _ _ _ hlt (ix1 e)
    rw [← row0_apply a1 Facts.slices_S2x800000_S1x800000_0_0 Facts.shapeCasts_S1x800000_S800000 e]
    exact toInt_lt_of_slt _ q

/-- With the listed edges' sources in range, all 850000 source words are: a self loop's word is its node number. -/
theorem src_range (a1 : IVec Cert.Gcn.T2x800000 32)
    (hrow : ∀ e : Fin 800000, 0 ≤ (a1 (ix2 (0 : Fin 2) e)).toInt ∧ (a1 (ix2 (0 : Fin 2) e)).toInt < 50000)
    (h1 h2 h3) (e : Fin 850000) :
    0 ≤ (Cert.Gcn.endsOf 0 a1 h1 h2 h3 (ix1 e)).toInt ∧ (Cert.Gcn.endsOf 0 a1 h1 h2 h3 (ix1 e)).toInt < 50000 := by
  rw [Cert.Gcn.endsOf_apply]
  by_cases h : e.val < 800000
  · -- a listed edge: the hypothesis
    rw [dif_pos h]
    exact hrow ⟨e.val, h⟩
  · -- a self loop: its node number, below 50000
    have h' : e.val - 800000 < 50000 := by have := e.isLt; omega
    rw [dif_neg h, StableHlo.Predicate.toInt_ofNat_small _ (by omega)]
    constructor <;> omega

end Cert.Gcn.PreFacts

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.RegionFinal.lean ====
/-
  What each of the two pallas_calls leaves in its output array, as one function of the arrays the call is entered
  with, element by element, at the extended reals.

  Call 0 takes row blocks of 2048 rows of the padded features [51200 × 128], the whole first weight matrix [128 × 256]
  and the matching rows of the scale column [51200 × 1]; row r of its output is (Σ_k feat r k · W k q) · scale r.
  Call 1 takes row blocks of the aggregated messages [51200 × 256], the scale column, the bias as a [1 × 256] row and the
  whole second weight matrix [256 × 128]; row r of its output is (Σ_k max (agg r k · scale r + bias k) 0 · W k q) · scale r.
  A change of float format is the identity at the extended reals, the matrix unit's product into a zero accumulator is
  the plain sum over the contracted axis, and the 25 grid points' blocks tile the 51200 rows.
-/
import proofs.«416440_j3178275799146_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionFinal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A rank-2 array of extended reals, named with its literal extents (a buffer's contents read at its shape). -/
abbrev arr2 (n k : Nat) (f : (⟨2, ![n, k]⟩ : Shape).Idx → EReal) : (⟨2, ![n, k]⟩ : Shape).Idx → EReal := f

/-! ## Layout and contraction lemmas -/

theorem hz : (![0, 0] : Fin 2 → Nat) = fun _ => 0 := funext fun a => by fin_cases a <;> rfl

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Call 0: the body's arithmetic at an index -/

theorem lhs0_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs0_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs0_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs0_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The matrix unit's product of a [2048 × 128] and a [128 × 256] block into a zero accumulator, at `(p, q)`. -/
theorem matmul0_apply (a : FVec Ideal S2048x128 .bf16) (b : FVec Ideal S128x256 .bf16) (p : Fin 2048) (q : Fin 256) :
    matmul dot_S2048x128_S128x256_S2048x256_1_0_0_1_n_n none a b (constant (F := Ideal) S2048x256 .f32 0x00000000#32) (ix2 p q)
      = ∑ k : Fin 128, a (ix2 p k) * b (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun ax => Fin.ext (by
    match ax with
    | ⟨0, _⟩ => exact lhs0_0 _ _
    | ⟨1, _⟩ => exact (lhs0_1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun ax => Fin.ext (by
    match ax with
    | ⟨0, _⟩ => exact (rhs0_0 _ _).trans hk
    | ⟨1, _⟩ => exact rhs0_1 _ _)
  rw [el, er]

/-- Call 0's stored block at `(p, q)`: the row of the feature block against the column of the weights, times the scale. -/
theorem pay0_apply (x0 : Vec Ideal S2048x128 .f32) (x1 : Vec Ideal S128x256 .f32) (x2 : Vec Ideal S2048x1 .f32)
    (p : Fin 2048) (q : Fin 256) :
    k0_pay1 x0 x1 x2 (ix2 p q) = (∑ k : Fin 128, x0 (ix2 p k) * x1 (ix2 k q)) * x2 (ix2 p (0 : Fin 1)) := by
  unfold k0_pay1
  rw [mulf_apply, matmul0_apply, broadcastTo_a1_ab_apply, shapeCast_self, shapeCast_self]
  rfl

/-! ## Call 0: from blocks to the array -/

/-- Row `r`, column `q` of call 0's result, from the whole arrays. -/
def g0 (a : S51200x128.Idx → EReal) (w : S128x256.Idx → EReal) (s : S51200x1.Idx → EReal) (r : Fin 51200) (q : Fin 256) : EReal :=
  (∑ k : Fin 128, a (ix2 r k) * w (ix2 k q)) * s (ix2 r (0 : Fin 1))

/-- Call 0's result as one function of the whole arrays, index by index. -/
def G0 (a : S51200x128.Idx → EReal) (w : S128x256.Idx → EReal) (s : S51200x1.Idx → EReal) : S51200x256.Idx → EReal :=
  fun i => g0 a w s (i 0) (i 1)

theorem G0_apply (a : S51200x128.Idx → EReal) (w : S128x256.Idx → EReal) (s : S51200x1.Idx → EReal) (i : S51200x256.Idx)
    (r : Fin 51200) (q : Fin 256) (h0 : (i 0).val = r.val) (h1 : (i 1).val = q.val) : G0 a w s i = g0 a w s r q := by
  obtain rfl : i = ix2 r q := funext fun ax => Fin.ext (match ax with | ⟨0, _⟩ => h0 | ⟨1, _⟩ => h1)
  rfl

/-- The printed index maps over the 25 grid points: the row-blocked windows sit at row block `t`, the whole windows at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `2048 t …` of the feature array. -/
theorem iblk0_0_apply (c : Dev nD) (t : Fin cfg0.N) (p : Fin 2048) (k : Fin 128) (r : Fin 51200) (hr : r.val = t.val * 2048 + p.val) :
    (iblk0 V c 0 t : Vec Ideal S2048x128 .f32) (ix2 p k) = arr2 51200 128 (V c main_v17) (ix2 r k) := by
  obtain ⟨e00, e01, e10, e11, e20, e21, e30, e31⟩ := idx_facts0 t
  show V c main_v17 (((cfg0.win 0).blk t).view.emb (ix2 p k)) = V c main_v17 (ix2 r k)
  have h : ((cfg0.win 0).blk t).view.emb (ix2 p k) = ix2 r k := by
    funext a; apply Fin.ext
    match a with
    | ⟨0, _⟩ => show win0_0.index t (0 : Fin 2) * 2048 + 1 * p.val = r.val; omega
    | ⟨1, _⟩ => show win0_0.index t (1 : Fin 2) * 128 + 1 * k.val = k.val; omega
  rw [h]

/-- The weight window's block at any point is the whole weight matrix. -/
theorem iblk0_1_apply (c : Dev nD) (t : Fin cfg0.N) (k : Fin 128) (q : Fin 256) :
    (iblk0 V c 1 t : Vec Ideal S128x256 .f32) (ix2 k q) = arr2 128 256 (V c main_arg2) (ix2 k q) := by
  obtain ⟨e00, e01, e10, e11, e20, e21, e30, e31⟩ := idx_facts0 t
  show V c main_arg2 (((cfg0.win 1).blk t).view.emb (ix2 k q)) = V c main_arg2 (ix2 k q)
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  rw [h]

/-- The scale window's block at point `t` is rows `2048 t …` of the scale column. -/
theorem iblk0_2_apply (c : Dev nD) (t : Fin cfg0.N) (p : Fin 2048) (r : Fin 51200) (hr : r.val = t.val * 2048 + p.val) :
    (iblk0 V c 2 t : Vec Ideal S2048x1 .f32) (ix2 p (0 : Fin 1)) = arr2 51200 1 (V c main_v19) (ix2 r (0 : Fin 1)) := by
  obtain ⟨e00, e01, e10, e11, e20, e21, e30, e31⟩ := idx_facts0 t
  show V c main_v19 (((cfg0.win 2).blk t).view.emb (ix2 p (0 : Fin 1))) = V c main_v19 (ix2 r (0 : Fin 1))
  have h : ((cfg0.win 2).blk t).view.emb (ix2 p (0 : Fin 1)) = ix2 r (0 : Fin 1) := by
    funext a; apply Fin.ext
    match a with
    | ⟨0, _⟩ => show win0_2.index t (0 : Fin 2) * 2048 + 1 * p.val = r.val; omega
    | ⟨1, _⟩ => show win0_2.index t (1 : Fin 2) * 1 + 1 * 0 = 0; omega
  rw [h]

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_v17) (V c main_arg2) (V c main_v19)) := by
  show (cfg0.win 3).cut (grid0.coords t) ((dat0 V c).after 3 t) = _
  rw [after0_3]
  unfold out0_3
  rw [View.canon_unit_zero hz]
  simp only [View.ld_unit_zero (S := S2048x128) hz, View.ld_unit_zero (S := S128x256) hz, View.ld_unit_zero (S := S2048x1) hz]
  obtain ⟨e00, e01, e10, e11, e20, e21, e30, e31⟩ := idx_facts0 t
  have hN : cfg0.N = 25 := N_0
  have ht : t.val < 25 := by have := t.isLt; omega
  refine funext fun (j : S2048x256.Idx) => ?_
  obtain ⟨p, q, rfl⟩ : ∃ (p : Fin 2048) (q : Fin 256), j = ix2 p q := ⟨j 0, j 1, eq_ix2 j⟩
  show k0_pay1 (F := Ideal) (iblk0 V c 0 t) (iblk0 V c 1 t) (iblk0 V c 2 t) (ix2 p q)
    = G0 (V c main_v17) (V c main_arg2) (V c main_v19) (((cfg0.win 3).blk t).view.emb (ix2 p q))
  have hE0 : ((((cfg0.win 3).blk t).view.emb (ix2 p q)) 0).val = t.val * 2048 + p.val := by
    show win0_3.index t (0 : Fin 2) * 2048 + 1 * p.val = _; omega
  have hE1 : ((((cfg0.win 3).blk t).view.emb (ix2 p q)) 1).val = q.val := by
    show win0_3.index t (1 : Fin 2) * 256 + 1 * q.val = _; omega
  have hp : p.val < 2048 := p.isLt
  rw [G0_apply _ _ _ _ ⟨t.val * 2048 + p.val, by omega⟩ q hE0 hE1]
  refine (pay0_apply _ _ _ p q).trans ?_
  unfold g0
  rw [iblk0_2_apply V c t p ⟨t.val * 2048 + p.val, by omega⟩ rfl]
  refine congrArg (· * _) (Finset.sum_congr rfl fun k _ => ?_)
  rw [iblk0_0_apply V c t p k ⟨t.val * 2048 + p.val, by omega⟩ rfl, iblk0_1_apply V c t k q]

/-- An index of the output array is in point `t`'s block iff each coordinate is in the block's range on its axis. -/
theorem mem_blk0 (t : Fin cfg0.N) (i : S51200x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v20).slice (win0_3.rect t)).set ↔ _
  rw [View.set_slice_whole, Rect.mem_set_unit]
  exact Iff.rfl

/-- Every index of the output array is in some point's block: row `r` in the block of point `r / 2048`. -/
theorem cover0 (i : S51200x256.Idx) : ∃ t : Fin cfg0.N, (cfg0.win 3).flush t = true ∧ i ∈ ((cfg0.win 3).blk t).view.set := by
  have hi0 : (i 0).val < 51200 := (i 0).isLt
  have hi1 : (i 1).val < 256 := (i 1).isLt
  have hN : cfg0.N = 25 := N_0
  obtain ⟨t, ht⟩ : ∃ t : Fin cfg0.N, t.val = (i 0).val / 2048 := ⟨⟨(i 0).val / 2048, by omega⟩, rfl⟩
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- Call 0's output array after its 25 grid points, at row `r`, column `q`. -/
theorem final0 (c : Dev nD) (r : Fin 51200) (q : Fin 256) :
    arr2 51200 256 ((dat0 (F := Ideal) V c).arrAt 3 cfg0.N) (ix2 r q) =
      (∑ k : Fin 128, arr2 51200 128 (V c main_v17) (ix2 r k) * arr2 128 256 (V c main_arg2) (ix2 k q))
        * arr2 51200 1 (V c main_v19) (ix2 r (0 : Fin 1)) := by
  have h := (dat0 (F := Ideal) V c).arrAt_eq_of_cover 3 (G0 (V c main_v17) (V c main_arg2) (V c main_v19))
    (fun t _ => flushed0_eq V c t) cover0
  dsimp only [arr2]
  rw [h]
  rfl

/-! ## Call 1: the body's arithmetic at an index -/

theorem lhs1_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs1_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs1_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs1_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The matrix unit's product of a [2048 × 256] and a [256 × 128] block into a zero accumulator, at `(p, q)`. -/
theorem matmul1_apply (a : FVec Ideal S2048x256 .bf16) (b : FVec Ideal S256x128 .bf16) (p : Fin 2048) (q : Fin 128) :
    matmul dot_S2048x256_S256x128_S2048x128_1_0_0_1_n_n none a b (constant (F := Ideal) S2048x128 .f32 0x00000000#32) (ix2 p q)
      = ∑ k : Fin 256, a (ix2 p k) * b (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun ax => Fin.ext (by
    match ax with
    | ⟨0, _⟩ => exact lhs1_0 _ _
    | ⟨1, _⟩ => exact (lhs1_1 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun ax => Fin.ext (by
    match ax with
    | ⟨0, _⟩ => exact (rhs1_0 _ _).trans hk
    | ⟨1, _⟩ => exact rhs1_1 _ _)
  rw [el, er]

/-- The activation stage of call 1 at `(p, k)`: the message times the scale, plus the bias, floored at zero. -/
theorem act1_apply (x0 : Vec Ideal S2048x256 .f32) (x1 : Vec Ideal S2048x1 .f32) (x2 : Vec Ideal S1x256 .f32)
    (p : Fin 2048) (k : Fin 256) :
    maximumf (addf (mulf (x0 : FVec Ideal S2048x256 .f32) (broadcastTo S2048x256 x1 broadcasts_S2048x1_S2048x256))
        (broadcastTo S2048x256 x2 broadcasts_S1x256_S2048x256))
      (broadcast S2048x256 (Scalar.ofBits (F := Ideal) .f32 0x00000000#32)) (ix2 p k)
      = max (x0 (ix2 p k) * x1 (ix2 p (0 : Fin 1)) + x2 (ix2 (0 : Fin 1) k)) 0 := by
  rw [maximumf_apply, addf_apply, mulf_apply, broadcast_apply, broadcastTo_a1_ab_apply, broadcastTo_1b_ab_apply]
  show max _ (Ideal.ofBits .f32 0x00000000#32) = _
  rw [Ideal.ofBits_zero_f32]

/-- Call 1's stored block at `(p, q)`: the activated row against the column of the weights, times the scale. -/
theorem pay1_apply (x0 : Vec Ideal S2048x256 .f32) (x1 : Vec Ideal S2048x1 .f32) (x2 : Vec Ideal S1x256 .f32)
    (x3 : Vec Ideal S256x128 .f32) (x4 : Vec Ideal S2048x1 .f32) (p : Fin 2048) (q : Fin 128) :
    k1_pay1 x0 x1 x2 x3 x4 (ix2 p q)
      = (∑ k : Fin 256, max (x0 (ix2 p k) * x1 (ix2 p (0 : Fin 1)) + x2 (ix2 (0 : Fin 1) k)) 0 * x3 (ix2 k q))
        * x4 (ix2 p (0 : Fin 1)) := by
  unfold k1_pay1
  simp only [shapeCast_self]
  rw [mulf_apply, matmul1_apply, broadcastTo_a1_ab_apply]
  refine congrArg (fun z : EReal => z * (x4 (ix2 p (0 : Fin 1)) : EReal)) (Finset.sum_congr rfl fun k _ => ?_)
  rw [truncf_apply, truncf_apply, act1_apply]

/-! ## Call 1: from blocks to the array -/

/-- Row `r`, column `q` of call 1's result, from the whole arrays. -/
def g1 (a : S51200x256.Idx → EReal) (s : S51200x1.Idx → EReal) (b : S1x256.Idx → EReal) (w : S256x128.Idx → EReal)
    (r : Fin 51200) (q : Fin 128) : EReal :=
  (∑ k : Fin 256, max (a (ix2 r k) * s (ix2 r (0 : Fin 1)) + b (ix2 (0 : Fin 1) k)) 0 * w (ix2 k q)) * s (ix2 r (0 : Fin 1))

/-- Call 1's result as one function of the whole arrays, index by index. -/
def G1 (a : S51200x256.Idx → EReal) (s : S51200x1.Idx → EReal) (b : S1x256.Idx → EReal) (w : S256x128.Idx → EReal) :
    S51200x128.Idx → EReal :=
  fun i => g1 a s b w (i 0) (i 1)

theorem G1_apply (a : S51200x256.Idx → EReal) (s : S51200x1.Idx → EReal) (b : S1x256.Idx → EReal) (w : S256x128.Idx → EReal)
    (i : S51200x128.Idx) (r : Fin 51200) (q : Fin 128) (h0 : (i 0).val = r.val) (h1 : (i 1).val = q.val) :
    G1 a s b w i = g1 a s b w r q := by
  obtain rfl : i = ix2 r q := funext fun ax => Fin.ext (match ax with | ⟨0, _⟩ => h0 | ⟨1, _⟩ => h1)
  rfl

/-- The printed index maps over the 25 grid points: the row-blocked windows sit at row block `t`, the whole windows at 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The message window's block at point `t` is rows `2048 t …` of the message array. -/
theorem iblk1_0_apply (c : Dev nD) (t : Fin cfg1.N) (p : Fin 2048) (k : Fin 256) (r : Fin 51200) (hr : r.val = t.val * 2048 + p.val) :
    (iblk1 V c 0 t : Vec Ideal S2048x256 .f32) (ix2 p k) = arr2 51200 256 (V c main_v30) (ix2 r k) := by
  obtain ⟨e00, e01, e10, e11, e20, e21, e30, e31, e40, e41⟩ := idx_facts1 t
  show V c main_v30 (((cfg1.win 0).blk t).view.emb (ix2 p k)) = V c main_v30 (ix2 r k)
  have h : ((cfg1.win 0).blk t).view.emb (ix2 p k) = ix2 r k := by
    funext a; apply Fin.ext
    match a with
    | ⟨0, _⟩ => show win1_0.index t (0 : Fin 2) * 2048 + 1 * p.val = r.val; omega
    | ⟨1, _⟩ => show win1_0.index t (1 : Fin 2) * 256 + 1 * k.val = k.val; omega
  rw [h]

/-- The scale window's block at point `t` is rows `2048 t …` of the scale column. -/
theorem iblk1_1_apply (c : Dev nD) (t : Fin cfg1.N) (p : Fin 2048) (r : Fin 51200) (hr : r.val = t.val * 2048 + p.val) :
    (iblk1 V c 1 t : Vec Ideal S2048x1 .f32) (ix2 p (0 : Fin 1)) = arr2 51200 1 (V c main_v19) (ix2 r (0 : Fin 1)) := by
  obtain ⟨e00, e01, e10, e11, e20, e21, e30, e31, e40, e41⟩ := idx_facts1 t
  show V c main_v19 (((cfg1.win 1).blk t).view.emb (ix2 p (0 : Fin 1))) = V c main_v19 (ix2 r (0 : Fin 1))
  have h : ((cfg1.win 1).blk t).view.emb (ix2 p (0 : Fin 1)) = ix2 r (0 : Fin 1) := by
    funext a; apply Fin.ext
    match a with
    | ⟨0, _⟩ => show win1_1.index t (0 : Fin 2) * 2048 + 1 * p.val = r.val; omega
    | ⟨1, _⟩ => show win1_1.index t (1 : Fin 2) * 1 + 1 * 0 = 0; omega
  rw [h]

/-- The bias window's block at any point is the whole bias row. -/
theorem iblk1_2_apply (c : Dev nD) (t : Fin cfg1.N) (k : Fin 256) :
    (iblk1 V c 2 t : Vec Ideal S1x256 .f32) (ix2 (0 : Fin 1) k) = arr2 1 256 (V c main_v31) (ix2 (0 : Fin 1) k) := by
  obtain ⟨e00, e01, e10, e11, e20, e21, e30, e31, e40, e41⟩ := idx_facts1 t
  show V c main_v31 (((cfg1.win 2).blk t).view.emb (ix2 (0 : Fin 1) k)) = V c main_v31 (ix2 (0 : Fin 1) k)
  have h : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 256 + 1 * k.val = k.val; omega
  rw [h]

/-- The weight window's block at any point is the whole second weight matrix. -/
theorem iblk1_3_apply (c : Dev nD) (t : Fin cfg1.N) (k : Fin 256) (q : Fin 128) :
    (iblk1 V c 3 t : Vec Ideal S256x128 .f32) (ix2 k q) = arr2 256 128 (V c main_arg4) (ix2 k q) := by
  obtain ⟨e00, e01, e10, e11, e20, e21, e30, e31, e40, e41⟩ := idx_facts1 t
  show V c main_arg4 (((cfg1.win 3).blk t).view.emb (ix2 k q)) = V c main_arg4 (ix2 k q)
  have h : ((cfg1.win 3).blk t).view.emb (ix2 k q) = ix2 k q := by
    funext a; apply Fin.ext
    match a with
    | ⟨0, _⟩ => show win1_3.index t (0 : Fin 2) * 256 + 1 * k.val = k.val; omega
    | ⟨1, _⟩ => show win1_3.index t (1 : Fin 2) * 128 + 1 * q.val = q.val; omega
  rw [h]

/-- What point `t` writes back is block `t` of `G1` of the arrays as the region finds them. -/
theorem flushed1_eq (c : Dev nD) (t : Fin cfg1.N) :
    (dat1 (F := Ideal) V c).flushed 4 t
      = ((cfg1.win 4).blk t).view.read (Elt Ideal) (G1 (V c main_v30) (V c main_v19) (V c main_v31) (V c main_arg4)) := by
  show (cfg1.win 4).cut (grid1.coords t) ((dat1 V c).after 4 t) = _
  rw [after1_4]
  unfold out1_4
  rw [View.canon_unit_zero hz]
  simp only [View.ld_unit_zero (S := S2048x256) hz, View.ld_unit_zero (S := S2048x1) hz, View.ld_unit_zero (S := S1x256) hz,
    View.ld_unit_zero (S := S256x128) hz]
  obtain ⟨e00, e01, e10, e11, e20, e21, e30, e31, e40, e41⟩ := idx_facts1 t
  have hN : cfg1.N = 25 := N_1
  have ht : t.val < 25 := by have := t.isLt; omega
  refine funext fun (j : S2048x128.Idx) => ?_
  obtain ⟨p, q, rfl⟩ : ∃ (p : Fin 2048) (q : Fin 128), j = ix2 p q := ⟨j 0, j 1, eq_ix2 j⟩
  show k1_pay1 (F := Ideal) (iblk1 V c 0 t) (iblk1 V c 1 t) (iblk1 V c 2 t) (iblk1 V c 3 t) (iblk1 V c 1 t) (ix2 p q)
    = G1 (V c main_v30) (V c main_v19) (V c main_v31) (V c main_arg4) (((cfg1.win 4).blk t).view.emb (ix2 p q))
  have hE0 : ((((cfg1.win 4).blk t).view.emb (ix2 p q)) 0).val = t.val * 2048 + p.val := by
    show win1_4.index t (0 : Fin 2) * 2048 + 1 * p.val = _; omega
  have hE1 : ((((cfg1.win 4).blk t).view.emb (ix2 p q)) 1).val = q.val := by
    show win1_4.index t (1 : Fin 2) * 128 + 1 * q.val = _; omega
  have hp : p.val < 2048 := p.isLt
  rw [G1_apply _ _ _ _ _ ⟨t.val * 2048 + p.val, by omega⟩ q hE0 hE1]
  refine (pay1_apply _ _ _ _ _ p q).trans ?_
  unfold g1
  rw [iblk1_1_apply V c t p ⟨t.val * 2048 + p.val, by omega⟩ rfl]
  refine congrArg (fun z : EReal => z * _) (Finset.sum_congr rfl fun k _ => ?_)
  rw [iblk1_0_apply V c t p k ⟨t.val * 2048 + p.val, by omega⟩ rfl, iblk1_2_apply V c t k, iblk1_3_apply V c t k q]

/-- An index of the output array is in point `t`'s block iff each coordinate is in the block's range on its axis. -/
theorem mem_blk1 (t : Fin cfg1.N) (i : S51200x128.Idx) :
    i ∈ ((cfg1.win 4).blk t).view.set ↔ ∀ a : Fin 2, win1_4.index t a * S2048x128.size a ≤ (i a).val ∧ (i a).val < win1_4.index t a * S2048x128.size a + S2048x128.size a := by
  show i ∈ ((View.whole main_v32).slice (win1_4.rect t)).set ↔ _
  rw [View.set_slice_whole, Rect.mem_set_unit]
  exact Iff.rfl

/-- Every index of the output array is in some point's block: row `r` in the block of point `r / 2048`. -/
theorem cover1 (i : S51200x128.Idx) : ∃ t : Fin cfg1.N, (cfg1.win 4).flush t = true ∧ i ∈ ((cfg1.win 4).blk t).view.set := by
  have hi0 : (i 0).val < 51200 := (i 0).isLt
  have hi1 : (i 1).val < 128 := (i 1).isLt
  have hN : cfg1.N = 25 := N_1
  obtain ⟨t, ht⟩ : ∃ t : Fin cfg1.N, t.val = (i 0).val / 2048 := ⟨⟨(i 0).val / 2048, by omega⟩, rfl⟩
  obtain ⟨e00, e01, e10, e11, e20, e21, e30, e31, e40, e41⟩ := idx_facts1 t
  refine ⟨t, flush1_4 t, ?_⟩
  rw [mem_blk1]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 128 ≤ (i 1).val ∧ (i 1).val < win1_4.index t (1 : Fin 2) * 128 + 128; omega

/-- Call 1's output array after its 25 grid points, at row `r`, column `q`. -/
theorem final1 (c : Dev nD) (r : Fin 51200) (q : Fin 128) :
    arr2 51200 128 ((dat1 (F := Ideal) V c).arrAt 4 cfg1.N) (ix2 r q) =
      (∑ k : Fin 256,
          max (arr2 51200 256 (V c main_v30) (ix2 r k) * arr2 51200 1 (V c main_v19) (ix2 r (0 : Fin 1))
            + arr2 1 256 (V c main_v31) (ix2 (0 : Fin 1) k)) 0
          * arr2 256 128 (V c main_arg4) (ix2 k q))
        * arr2 51200 1 (V c main_v19) (ix2 r (0 : Fin 1)) := by
  have h := (dat1 (F := Ideal) V c).arrAt_eq_of_cover 4 (G1 (V c main_v30) (V c main_v19) (V c main_v31) (V c main_arg4))
    (fun t _ => flushed1_eq V c t) cover1
  dsimp only [arr2]
  rw [h]
  rfl

end Cert.KernelIdeal.RegionFinal

end
-- ==== Proof.KernelPrefix.lean ====
/-
  The buffers the first pallas_call is entered with, read back through the host operations before it to the launch
  memory: the edges' source and destination words, the scale column (`dis` padded with zeros to 51200 rows, as a
  column), the features padded with 1200 zero rows, and the arguments themselves. Only rows below 50000 are read here:
  there the padded arrays hold the unpadded ones.
-/
import proofs.«416440_j3178275799146_3_alg».proof.Proof.Gen.KernelIdeal.Frame
import proofs.«416440_j3178275799146_3_alg».proof.Proof.Shared
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Prefix

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edges' source words, from the launch memory's edge list. -/
abbrev srcV (c : Dev nD) : IVec Cert.Gcn.T850000 32 :=
  Cert.Gcn.endsOf 0 (m ((c : Thread nD τ).loc main_arg1)) (by decide) (by decide) (by decide)
/-- The edges' destination words. -/
abbrev dstV (c : Dev nD) : IVec Cert.Gcn.T850000 32 :=
  Cert.Gcn.endsOf 1 (m ((c : Thread nD τ).loc main_arg1)) (by decide) (by decide) (by decide)
/-- `dis` of the launch memory's edge list. -/
abbrev disV (c : Dev nD) : FVec Ideal Cert.Gcn.T50000 .f32 :=
  Cert.Gcn.disOf (Cert.Gcn.degOf (dstV m c) (by decide) (by decide) (by decide)) (by decide)
/-- The degrees of the launch memory's edge list. -/
abbrev degV (c : Dev nD) : FVec Ideal Cert.Gcn.T50000 .f32 :=
  Cert.Gcn.degOf (dstV m c) (by decide) (by decide) (by decide)

/-- A buffer that no operation of a stretch writes holds after the stretch what it held before: every operation writes
    its one result buffer, a reference other than the one read. -/
local macro "stretch_keeps" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem W7_v3 (c : Dev nD) : (W7 m ρ c (Proc.devRef .tc main_v3) : S850000.Idx → BitVec 32) = srcV m c :=
  calc (W7 m ρ c (Proc.devRef .tc main_v3) : S850000.Idx → BitVec 32)
    _ = W6 m ρ c (Proc.devRef .tc main_v3) := by stretch_keeps hostOps0_6 main_v3
    _ = W5 m ρ c (Proc.devRef .tc main_v3) := by stretch_keeps hostOps0_5 main_v3
    _ = W4 m ρ c (Proc.devRef .tc main_v3) := by stretch_keeps hostOps0_4 main_v3
    _ = W3 m ρ c (Proc.devRef .tc main_v3) := by stretch_keeps hostOps0_3 main_v3
    _ = W2 m ρ c (Proc.devRef .tc main_v3) := by stretch_keeps hostOps0_2 main_v3
    _ = W1 m ρ c (Proc.devRef .tc main_v3) := by stretch_keeps hostOps0_1 main_v3
    _ = srcV m c := by
      -- the first stretch writes it: row 0 of the edge list, its unit axis dropped, followed by the iota
      show StableHlo.after hostOps0 (W0 m ρ c) (Proc.devRef .tc main_v3) = _
      simp only [hostOps0]
      after_results
      rfl

theorem W7_v6 (c : Dev nD) : (W7 m ρ c (Proc.devRef .tc main_v6) : S850000.Idx → BitVec 32) = dstV m c :=
  calc (W7 m ρ c (Proc.devRef .tc main_v6) : S850000.Idx → BitVec 32)
    _ = W6 m ρ c (Proc.devRef .tc main_v6) := by stretch_keeps hostOps0_6 main_v6
    _ = W5 m ρ c (Proc.devRef .tc main_v6) := by stretch_keeps hostOps0_5 main_v6
    _ = W4 m ρ c (Proc.devRef .tc main_v6) := by stretch_keeps hostOps0_4 main_v6
    _ = W3 m ρ c (Proc.devRef .tc main_v6) := by stretch_keeps hostOps0_3 main_v6
    _ = W2 m ρ c (Proc.devRef .tc main_v6) := by stretch_keeps hostOps0_2 main_v6
    _ = W1 m ρ c (Proc.devRef .tc main_v6) := by stretch_keeps hostOps0_1 main_v6
    _ = dstV m c := by
      -- the first stretch writes it: row 1 of the edge list, its unit axis dropped, followed by the iota
      show StableHlo.after hostOps0 (W0 m ρ c) (Proc.devRef .tc main_v6) = _
      simp only [hostOps0]
      after_results
      rfl

/-- What is left of a fold's results inside a dependent pair (a concatenate's pieces), rewritten occurrence by occurrence: an
    operation's result at its own buffer is its function's value, at any other buffer what was there. -/
local macro "results_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- An `[a]` array cast to `[a, 1]` reads, at `(i, u)`, the operand at `i`: the two indices have the same row-major position. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The scale vector: the first stretch computes the degree, the comparison and the inverse square root; the inlined
    call selects between them. Each inlined call is read over ANY contents first (its operands' buffers left as they
    are), then at the contents the stretches before it leave. -/

/-- The positivity mask after the first stretch: the degree compared with zero. -/
theorem W1_v12 (c : Dev nD) : (W1 m ρ c (Proc.devRef .tc main_v12) : S50000.Idx → BitVec 1)
    = cmpf .ogt (degV m c) (broadcastInDim S50000 ![] bcast_S_S50000 (constant (F := Ideal) S_ .f32 0x00000000#32)) := by
  show StableHlo.after hostOps0 (W0 m ρ c) (Proc.devRef .tc main_v12) = _
  simp only [hostOps0]
  after_results_simp
  results_rw
  rfl

/-- The inverse square root after the first stretch, of the degree raised to the floor. -/
theorem W1_v15 (c : Dev nD) : (W1 m ρ c (Proc.devRef .tc main_v15) : S50000.Idx → EReal)
    = Host.rsqrt (maximumf (degV m c) (broadcastInDim S50000 ![] bcast_S_S50000 (constant (F := Ideal) S_ .f32 0x2B8CBCCC#32))) := by
  show StableHlo.after hostOps0 (W0 m ρ c) (Proc.devRef .tc main_v15) = _
  simp only [hostOps0]
  after_results_simp
  results_rw
  rfl

/-- The zero the select falls back to. -/
theorem W1_cst3 (c : Dev nD) : (W1 m ρ c (Proc.devRef .tc main_cst_3) : S_.Idx → EReal)
    = constant (F := Ideal) S_ .f32 0x00000000#32 := by
  show StableHlo.after hostOps0 (W0 m ρ c) (Proc.devRef .tc main_cst_3) = _
  simp only [hostOps0]
  after_results_simp

/-- The inlined select over any contents: the mask's buffer selects between the inverse square root's buffer and the
    broadcast of the zero's. -/
theorem sel_v16 (V : Valuation τ sig (Elt Ideal)) :
    (StableHlo.after hostOps0_1 V (Proc.devRef .tc main_v16) : S50000.Idx → EReal)
      = select (V (Proc.devRef .tc main_v12) : S50000.Idx → BitVec 1) (V (Proc.devRef .tc main_v15) : S50000.Idx → EReal)
          (broadcastInDim S50000 ![] bcast_S_S50000 (V (Proc.devRef .tc main_cst_3) : S_.Idx → EReal)) := by
  simp only [hostOps0_1]
  after_results_simp
  rfl

/-- The scale vector once the inlined select has run (the second stretch): `dis` of the launch memory's edge list. -/
theorem W2_v16 (c : Dev nD) : (W2 m ρ c (Proc.devRef .tc main_v16) : S50000.Idx → EReal) = disV m c :=
  (sel_v16 (W1 m ρ c)).trans (by
    rw [W1_v12 m ρ c, W1_v15 m ρ c, W1_cst3 m ρ c]
    rfl)

/-- No later stretch before the pad writes the scale vector. -/
theorem W5_v16 (c : Dev nD) : (W5 m ρ c (Proc.devRef .tc main_v16) : S50000.Idx → EReal) = disV m c :=
  calc (W5 m ρ c (Proc.devRef .tc main_v16) : S50000.Idx → EReal)
    _ = W4 m ρ c (Proc.devRef .tc main_v16) := by stretch_keeps hostOps0_4 main_v16
    _ = W3 m ρ c (Proc.devRef .tc main_v16) := by stretch_keeps hostOps0_3 main_v16
    _ = W2 m ρ c (Proc.devRef .tc main_v16) := by stretch_keeps hostOps0_2 main_v16
    _ = disV m c := W2_v16 m ρ c

/-- The inlined pad of the scale vector over any contents: 1200 trailing entries of the padding value. -/
theorem pad_v18 (V : Valuation τ sig (Elt Ideal)) :
    (StableHlo.after hostOps0_5 V (Proc.devRef .tc main_v18) : S51200.Idx → EReal)
      = pad S51200 ![0] ![1200] ![0] (V (Proc.devRef .tc main_v16) : S50000.Idx → EReal)
          (sitofp (F := Ideal) .f32 (V (Proc.devRef .tc main_c_4) : IVec S_ 32) : FVec Ideal S_ .f32) pads_S50000_S51200_012000 h_S_ := by
  simp only [hostOps0_5]
  after_results_simp
  rfl

/-- The last stretch: the padded vector cast to a column. -/
theorem cast_v19 (c : Dev nD) : (W7 m ρ c (Proc.devRef .tc main_v19) : S51200x1.Idx → EReal)
    = shapeCast S51200x1 (W6 m ρ c (Proc.devRef .tc main_v18) : S51200.Idx → EReal) shapeCasts_S51200_S51200x1 := by
  show StableHlo.after hostOps0_6 (W6 m ρ c) (Proc.devRef .tc main_v19) = _
  simp only [hostOps0_6]
  after_results_simp
  rfl

/-- The inlined pad of the features over any contents: 1200 trailing rows of the padding value. -/
theorem pad_v17 (V : Valuation τ sig (Elt Ideal)) :
    (StableHlo.after hostOps0_3 V (Proc.devRef .tc main_v17) : S51200x128.Idx → EReal)
      = pad S51200x128 ![0, 0] ![1200, 0] ![0, 0] (V (Proc.devRef .tc main_arg0) : S50000x128.Idx → EReal)
          (sitofp (F := Ideal) .f32 (V (Proc.devRef .tc main_c) : IVec S_ 32) : FVec Ideal S_ .f32)
          pads_S50000x128_S51200x128_012000_000 h_S_ := by
  simp only [hostOps0_3]
  after_results_simp
  rfl

/-- The features when their pad runs are as launched: no earlier operation writes them. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2 main_arg0
    _ = W1 m ρ c (Proc.devRef .tc main_arg0) := by stretch_keeps hostOps0_1 main_arg0
    _ = W0 m ρ c (Proc.devRef .tc main_arg0) := by stretch_keeps hostOps0 main_arg0
    _ = m ((c : Thread nD τ).loc main_arg0) := rfl

/-- The scale column at a row below 50000 is `dis` there. -/
theorem W7_v19 (c : Dev nD) (r : Fin 50000) :
    (W7 m ρ c (Proc.devRef .tc main_v19) : S51200x1.Idx → EReal) (ix2 (Fin.castLE (by decide : 50000 ≤ 51200) r) (0 : Fin 1))
      = disV m c (ix1 r) := by
  -- the column at (r, 0) is the padded vector at r
  refine (congrFun (cast_v19 m ρ c) _).trans ?_
  refine (shapeCast_a_a1_apply (a := 51200) _ shapeCasts_S51200_S51200x1 (Fin.castLE (by decide : 50000 ≤ 51200) r) 0).trans ?_
  refine (congrFun (pad_v18 (W5 m ρ c)) _).trans ?_
  -- r is below 50000: inside the operand, no low padding and no interior padding
  refine (pad_apply_of_inside (s := S50000) (t := S51200) ![0] ![1200] ![0] _ _ pads_S50000_S51200_012000 h_S_ _ (ix1 r)
    (fun a => by match a with | ⟨0, _⟩ => show r.val = 0 + r.val * (0 + 1); omega)).trans ?_
  exact congrFun (W5_v16 m ρ c) (ix1 r)

/-- The padded features at a row below 50000 are the features there. -/
theorem W7_v17 (c : Dev nD) (r : Fin 50000) (j : Fin 128) :
    (W7 m ρ c (Proc.devRef .tc main_v17) : S51200x128.Idx → EReal) (ix2 (Fin.castLE (by decide : 50000 ≤ 51200) r) j)
      = (m ((c : Thread nD τ).loc main_arg0) : S50000x128.Idx → EReal) (ix2 r j) := by
  have e : (W7 m ρ c (Proc.devRef .tc main_v17) : S51200x128.Idx → EReal) = W4 m ρ c (Proc.devRef .tc main_v17) :=
    calc (W7 m ρ c (Proc.devRef .tc main_v17) : S51200x128.Idx → EReal)
      _ = W6 m ρ c (Proc.devRef .tc main_v17) := by stretch_keeps hostOps0_6 main_v17
      _ = W5 m ρ c (Proc.devRef .tc main_v17) := by stretch_keeps hostOps0_5 main_v17
      _ = W4 m ρ c (Proc.devRef .tc main_v17) := by stretch_keeps hostOps0_4 main_v17
  refine (congrFun e _).trans ?_
  -- the fourth stretch: the pad of the features by 1200 trailing zero rows
  refine (congrFun (pad_v17 (W3 m ρ c)) _).trans ?_
  -- row r is below 50000: inside the operand on both axes
  refine (pad_apply_of_inside (s := S50000x128) (t := S51200x128) ![0, 0] ![1200, 0] ![0, 0] _ _
    pads_S50000x128_S51200x128_012000_000 h_S_ _ (ix2 r j)
    (fun a => by
      match a with
      | ⟨0, _⟩ => show r.val = 0 + r.val * (0 + 1); omega
      | ⟨1, _⟩ => show j.val = 0 + j.val * (0 + 1); omega)).trans ?_
  exact congrFun (W3_arg0 m ρ c) (ix2 r j)

/-- No host operation before the first kernel writes this argument: at the kernel's entry it is as launched. -/
theorem W7_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by stretch_keeps hostOps0_6 main_arg2
    _ = W5 m ρ c (Proc.devRef .tc main_arg2) := by stretch_keeps hostOps0_5 main_arg2
    _ = W4 m ρ c (Proc.devRef .tc main_arg2) := by stretch_keeps hostOps0_4 main_arg2
    _ = W3 m ρ c (Proc.devRef .tc main_arg2) := by stretch_keeps hostOps0_3 main_arg2
    _ = W2 m ρ c (Proc.devRef .tc main_arg2) := by stretch_keeps hostOps0_2 main_arg2
    _ = W1 m ρ c (Proc.devRef .tc main_arg2) := by stretch_keeps hostOps0_1 main_arg2
    _ = W0 m ρ c (Proc.devRef .tc main_arg2) := by stretch_keeps hostOps0 main_arg2
    _ = m ((c : Thread nD τ).loc main_arg2) := rfl
/-- No host operation before the first kernel writes this argument: at the kernel's entry it is as launched. -/
theorem W7_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by stretch_keeps hostOps0_6 main_arg3
    _ = W5 m ρ c (Proc.devRef .tc main_arg3) := by stretch_keeps hostOps0_5 main_arg3
    _ = W4 m ρ c (Proc.devRef .tc main_arg3) := by stretch_keeps hostOps0_4 main_arg3
    _ = W3 m ρ c (Proc.devRef .tc main_arg3) := by stretch_keeps hostOps0_3 main_arg3
    _ = W2 m ρ c (Proc.devRef .tc main_arg3) := by stretch_keeps hostOps0_2 main_arg3
    _ = W1 m ρ c (Proc.devRef .tc main_arg3) := by stretch_keeps hostOps0_1 main_arg3
    _ = W0 m ρ c (Proc.devRef .tc main_arg3) := by stretch_keeps hostOps0 main_arg3
    _ = m ((c : Thread nD τ).loc main_arg3) := rfl
/-- No host operation before the first kernel writes this argument: at the kernel's entry it is as launched. -/
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by stretch_keeps hostOps0_6 main_arg4
    _ = W5 m ρ c (Proc.devRef .tc main_arg4) := by stretch_keeps hostOps0_5 main_arg4
    _ = W4 m ρ c (Proc.devRef .tc main_arg4) := by stretch_keeps hostOps0_4 main_arg4
    _ = W3 m ρ c (Proc.devRef .tc main_arg4) := by stretch_keeps hostOps0_3 main_arg4
    _ = W2 m ρ c (Proc.devRef .tc main_arg4) := by stretch_keeps hostOps0_2 main_arg4
    _ = W1 m ρ c (Proc.devRef .tc main_arg4) := by stretch_keeps hostOps0_1 main_arg4
    _ = W0 m ρ c (Proc.devRef .tc main_arg4) := by stretch_keeps hostOps0 main_arg4
    _ = m ((c : Thread nD τ).loc main_arg4) := rfl
/-- No host operation before the first kernel writes this argument: at the kernel's entry it is as launched. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by stretch_keeps hostOps0_6 main_arg5
    _ = W5 m ρ c (Proc.devRef .tc main_arg5) := by stretch_keeps hostOps0_5 main_arg5
    _ = W4 m ρ c (Proc.devRef .tc main_arg5) := by stretch_keeps hostOps0_4 main_arg5
    _ = W3 m ρ c (Proc.devRef .tc main_arg5) := by stretch_keeps hostOps0_3 main_arg5
    _ = W2 m ρ c (Proc.devRef .tc main_arg5) := by stretch_keeps hostOps0_2 main_arg5
    _ = W1 m ρ c (Proc.devRef .tc main_arg5) := by stretch_keeps hostOps0_1 main_arg5
    _ = W0 m ρ c (Proc.devRef .tc main_arg5) := by stretch_keeps hostOps0 main_arg5
    _ = m ((c : Thread nD τ).loc main_arg5) := rfl

end Cert.KernelIdeal.Prefix

end
-- ==== Proof.KernelMid.lean ====
/-
  The buffers the second pallas_call is entered with, read back to the launch memory. The aggregated messages
  [51200 × 256] at a row r below 50000 hold, in column k, the sum over the edges into node r of the first call's output
  at the edge's source row: the features' row times the first weight matrix, scaled by dis at the source. The scale
  column, the first bias as a row, the edge words and the remaining arguments pass through unchanged.
-/
import proofs.«416440_j3178275799146_3_alg».proof.Proof.Gen.KernelIdeal.Frame
import proofs.«416440_j3178275799146_3_alg».proof.Proof.Shared
import proofs.«416440_j3178275799146_3_alg».proof.Proof.Spec
import proofs.«416440_j3178275799146_3_alg».proof.Proof.LibRowGatherScatter
import proofs.«416440_j3178275799146_3_alg».proof.Proof.RegionFinal
import proofs.«416440_j3178275799146_3_alg».proof.Proof.KernelPrefix
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Mid

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The features, as a function of row and column. -/
abbrev xF (c : Dev nD) : Fin 50000 → Fin 128 → EReal :=
  fun r j => (m ((c : Thread nD τ).loc main_arg0) : S50000x128.Idx → EReal) (ix2 r j)
/-- The first weight matrix. -/
abbrev w1F (c : Dev nD) : Fin 128 → Fin 256 → EReal :=
  fun j k => (m ((c : Thread nD τ).loc main_arg2) : S128x256.Idx → EReal) (ix2 j k)
/-- The first bias. -/
abbrev b1F (c : Dev nD) : Fin 256 → EReal := fun k => (m ((c : Thread nD τ).loc main_arg3) : S256.Idx → EReal) (ix1 k)
/-- The second weight matrix. -/
abbrev w2F (c : Dev nD) : Fin 256 → Fin 128 → EReal :=
  fun k q => (m ((c : Thread nD τ).loc main_arg4) : S256x128.Idx → EReal) (ix2 k q)
/-- The second bias. -/
abbrev b2F (c : Dev nD) : Fin 128 → EReal := fun q => (m ((c : Thread nD τ).loc main_arg5) : S128.Idx → EReal) (ix1 q)
/-- `dis` as a function of the node. -/
abbrev disF (c : Dev nD) : Fin 50000 → EReal := fun r => Prefix.disV m c (ix1 r)
/-- Edge `e`'s source row: its word read signed, clamped into the 50000 rows. -/
abbrev srcRow (c : Dev nD) : Fin 850000 → Fin 50000 :=
  fun e => ⟨min (Prefix.srcV m c (ix1 e)).toInt.toNat 49999, by omega⟩
/-- Edge `e`'s destination word. -/
abbrev dstW (c : Dev nD) : Fin 850000 → BitVec 32 := fun e => Prefix.dstV m c (ix1 e)

/-- A buffer that no operation of a stretch writes holds after the stretch what it held before: every operation writes
    its one result buffer, a reference other than the one read. -/
local macro "stretch_keeps" ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The buffers the host operations between the two calls leave alone -/

theorem W9_v3 (c : Dev nD) : (W9 m ρ c (Proc.devRef .tc main_v3) : S850000.Idx → BitVec 32) = Prefix.srcV m c :=
  calc (W9 m ρ c (Proc.devRef .tc main_v3) : S850000.Idx → BitVec 32)
    _ = W8 m ρ c (Proc.devRef .tc main_v3) := by stretch_keeps hostOps1 main_v3
    _ = W7 m ρ c (Proc.devRef .tc main_v3) := W8_of_ne m ρ c main_v3 (by decide)
    _ = Prefix.srcV m c := Prefix.W7_v3 m ρ c
theorem W9_v6 (c : Dev nD) : (W9 m ρ c (Proc.devRef .tc main_v6) : S850000.Idx → BitVec 32) = Prefix.dstV m c :=
  calc (W9 m ρ c (Proc.devRef .tc main_v6) : S850000.Idx → BitVec 32)
    _ = W8 m ρ c (Proc.devRef .tc main_v6) := by stretch_keeps hostOps1 main_v6
    _ = W7 m ρ c (Proc.devRef .tc main_v6) := W8_of_ne m ρ c main_v6 (by decide)
    _ = Prefix.dstV m c := Prefix.W7_v6 m ρ c
theorem W9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := by stretch_keeps hostOps1 main_arg4
    _ = W7 m ρ c (Proc.devRef .tc main_arg4) := W8_of_ne m ρ c main_arg4 (by decide)
    _ = m ((c : Thread nD τ).loc main_arg4) := Prefix.W7_arg4 m ρ c
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by stretch_keeps hostOps1 main_arg5
    _ = W7 m ρ c (Proc.devRef .tc main_arg5) := W8_of_ne m ρ c main_arg5 (by decide)
    _ = m ((c : Thread nD τ).loc main_arg5) := Prefix.W7_arg5 m ρ c

/-- The scale column is an input window of the first call and no host operation after it writes it. -/
theorem W9_v19 (c : Dev nD) (r : Fin 50000) :
    (W9 m ρ c (Proc.devRef .tc main_v19) : S51200x1.Idx → EReal) (ix2 (Fin.castLE (by decide : 50000 ≤ 51200) r) (0 : Fin 1))
      = Prefix.disV m c (ix1 r) := by
  have e : W9 m ρ c (Proc.devRef .tc main_v19) = W7 m ρ c (Proc.devRef .tc main_v19) :=
    calc W9 m ρ c (Proc.devRef .tc main_v19)
      _ = W8 m ρ c (Proc.devRef .tc main_v19) := by stretch_keeps hostOps1 main_v19
      _ = W7 m ρ c (Proc.devRef .tc main_v19) :=
        (W8_arr m ρ c 2).trans (((dat0 (V7 m ρ) c).arrAt_in 2 rfl _).trans (A_eq0 (V7 m ρ) c 2))
  exact (congrFun e _).trans (Prefix.W7_v19 m ρ c r)

/-- The first bias laid as a [1 × 256] row. -/
theorem W9_v31 (c : Dev nD) (k : Fin 256) :
    (W9 m ρ c (Proc.devRef .tc main_v31) : S1x256.Idx → EReal) (ix2 (0 : Fin 1) k)
      = (m ((c : Thread nD τ).loc main_arg3) : S256.Idx → EReal) (ix1 k) := by
  have e3 : W8 m ρ c (Proc.devRef .tc main_arg3) = m ((c : Thread nD τ).loc main_arg3) :=
    (W8_of_ne m ρ c main_arg3 (by decide)).trans (Prefix.W7_arg3 m ρ c)
  show StableHlo.after hostOps1 (W8 m ρ c) (Proc.devRef .tc main_v31) (ix2 (0 : Fin 1) k) = _
  simp only [hostOps1]
  after_results
  rw [e3]
  exact shapeCast_a_1a_apply _ _ (0 : Fin 1) k

/-- The first call's output at a row below 50000: the features' row times the first weight matrix, scaled by `dis`. -/
theorem W8_v20 (c : Dev nD) (r : Fin 50000) (q : Fin 256) :
    (W8 m ρ c (Proc.devRef .tc main_v20) : S51200x256.Idx → EReal) (ix2 (Fin.castLE (by decide : 50000 ≤ 51200) r) q)
      = Cert.Gcn.scaledLin1 (xF m c) (w1F m c) (disF m c) r q := by
  have h8 : W8 m ρ c (Proc.devRef .tc main_v20) = (dat0 (V7 m ρ) c).arrAt 3 cfg0.N := W8_arr m ρ c 3
  have hf := RegionFinal.final0 (V7 m ρ) c (Fin.castLE (by decide : 50000 ≤ 51200) r) q
  dsimp only [RegionFinal.arr2] at hf
  refine (congrFun h8 _).trans (hf.trans ?_)
  unfold Cert.Gcn.scaledLin1
  exact congrArg₂ (fun a b : EReal => a * b)
    (Finset.sum_congr rfl fun j _ => congrArg₂ (fun a b : EReal => a * b) (Prefix.W7_v17 m ρ c r j)
      (congrFun (Prefix.W7_arg2 m ρ c) (ix2 j q)))
    (Prefix.W7_v19 m ρ c r)

/-! ## The host operations between the two calls, at an index -/

/-- A vector laid as a column reads, at `(e, 0)`, the vector at `e`. -/
theorem col_apply {α : Type} (h : S850000.BroadcastsInDim S850000x1 (![0] : Fin 1 → Fin S850000x1.rank))
    (v : S850000.Idx → α) (e : Fin 850000) :
    broadcastInDim S850000x1 ![0] h v (ix2 e (0 : Fin 1)) = v (ix1 e) :=
  broadcastInDim_apply _ h v _ (ix1 e) (fun a => by
    match a with
    | ⟨0, _⟩ =>
      rw [if_neg (by show ¬ (850000 : ℕ) = 1; omega)]
      rfl)

/-- The negative-index wrap leaves a word that reads signed at least zero as it is. -/
theorem wrap_apply (src : IVec S850000 32) (hb : S_.BroadcastsInDim S850000 (![] : Fin 0 → Fin S850000.rank))
    (e : Fin 850000) (h0 : 0 ≤ (src (ix1 e)).toInt) :
    select (cmpi .slt src (broadcastInDim S850000 ![] hb (constantI S_ 32 0#32)))
      (addi src (broadcastInDim S850000 ![] hb (constantI S_ 32 51200#32))) src (ix1 e) = src (ix1 e) := by
  rw [select_apply]
  have hc : cmpi .slt src (broadcastInDim S850000 ![] hb (constantI S_ 32 0#32)) (ix1 e) = 0#1 := by
    show IntOp.cmpi .slt (src (ix1 e)) 0#32 = 0#1
    unfold IntOp.cmpi
    simp only [BitVec.slt]
    rw [decide_eq_false (by rw [BitVec.toInt_zero]; omega)]
    rfl
  rw [hc]
  unfold Scalar.select
  rw [if_neg (by decide)]

/-- Rows gathered at the wrapped source words, then added at the destination words into zeros: at row `i`, column `k`
    the sum over the edges whose destination word reads `i` of the gathered array at the edge's source row. -/
theorem agg_apply (y : FVec Ideal S51200x256 .f32) (src dst : IVec S850000 32)
    (hsrc : ∀ e : Fin 850000, 0 ≤ (src (ix1 e)).toInt ∧ (src (ix1 e)).toInt < 50000)
    (hb : S_.BroadcastsInDim S850000 (![] : Fin 0 → Fin S850000.rank))
    (hc : S850000.BroadcastsInDim S850000x1 (![0] : Fin 1 → Fin S850000x1.rank))
    (hz : S_.BroadcastsInDim S51200x256 (![] : Fin 0 → Fin S51200x256.rank))
    (i : Fin 51200) (k : Fin 256) :
    (Host.scatterAdd (F := Ideal) (φ := .f32) scatter_S51200x256_S850000x1_S850000x256_1_0_0_1
        (broadcastInDim S51200x256 ![] hz (constant (F := Ideal) S_ .f32 0x00000000#32))
        (broadcastInDim S850000x1 ![0] hc dst)
        (Host.gather gather_S51200x256_S850000x1_S850000x256_1_0_n_n_0_1_1256 y
          (broadcastInDim S850000x1 ![0] hc
            (select (cmpi .slt src (broadcastInDim S850000 ![] hb (constantI S_ 32 0#32)))
              (addi src (broadcastInDim S850000 ![] hb (constantI S_ 32 51200#32))) src)))
      : S51200x256.Idx → EReal) (ix2 i k)
    = ∑ e ∈ Finset.univ.filter (fun e : Fin 850000 => (dst (ix1 e)).toInt = (i.val : ℤ)),
        y (ix2 (⟨(src (ix1 e)).toInt.toNat, by have := hsrc e; omega⟩ : Fin 51200) k) := by
  rw [Cert.Gcn.scatterAdd_rows _ rfl rfl rfl rfl, broadcastInDim_scalar_apply, constant_apply, Ideal.ofBits_zero_f32,
    zero_add]
  refine Finset.sum_congr (Finset.filter_congr fun e _ => by rw [col_apply]) fun e _ => ?_
  refine (Cert.Gcn.gather_rows _ rfl rfl rfl rfl rfl y _ e k (by norm_num)).trans
    (congrArg (fun t : Fin 51200 => y (ix2 t k)) (Fin.ext ?_))
  have h := hsrc e
  show min (_ : BitVec 32).toInt.toNat (51200 - 1) = (src (ix1 e)).toInt.toNat
  rw [col_apply, wrap_apply src hb e h.1]
  omega

/-- The aggregated messages at a row below 50000: the sum over the edges into it of the scaled first-layer rows. -/
theorem W9_v30 (c : Dev nD)
    (hsrc : ∀ e : Fin 850000, 0 ≤ (Prefix.srcV m c (ix1 e)).toInt ∧ (Prefix.srcV m c (ix1 e)).toInt < 50000)
    (r : Fin 50000) (k : Fin 256) :
    (W9 m ρ c (Proc.devRef .tc main_v30) : S51200x256.Idx → EReal) (ix2 (Fin.castLE (by decide : 50000 ≤ 51200) r) k)
      = ∑ e ∈ Cert.Gcn.into (dstW m c) r, Cert.Gcn.scaledLin1 (xF m c) (w1F m c) (disF m c) (srcRow m c e) k := by
  have e3 : (W8 m ρ c (Proc.devRef .tc main_v3) : S850000.Idx → BitVec 32) = Prefix.srcV m c :=
    (W8_of_ne m ρ c main_v3 (by decide)).trans (Prefix.W7_v3 m ρ c)
  have e6 : (W8 m ρ c (Proc.devRef .tc main_v6) : S850000.Idx → BitVec 32) = Prefix.dstV m c :=
    (W8_of_ne m ρ c main_v6 (by decide)).trans (Prefix.W7_v6 m ρ c)
  show StableHlo.after hostOps1 (W8 m ρ c) (Proc.devRef .tc main_v30) (ix2 (Fin.castLE (by decide : 50000 ≤ 51200) r) k) = _
  simp only [hostOps1]
  after_results
  rw [e3, e6]
  refine (agg_apply (W8 m ρ c (Proc.devRef .tc main_v20)) (Prefix.srcV m c) (Prefix.dstV m c) hsrc _ _ _ _ k).trans ?_
  unfold Cert.Gcn.into
  refine Finset.sum_congr rfl fun e _ => ?_
  have h := hsrc e
  refine Eq.trans (congrArg (fun t : Fin 51200 => (W8 m ρ c (Proc.devRef .tc main_v20) : S51200x256.Idx → EReal) (ix2 t k))
    (Fin.ext ?_)) (W8_v20 m ρ c (srcRow m c e) k)
  show (Prefix.srcV m c (ix1 e)).toInt.toNat = min (Prefix.srcV m c (ix1 e)).toInt.toNat 49999
  omega

end Cert.KernelIdeal.Mid

end
-- ==== Proof.KernelValue.lean ====
/-
  The idealized kernel's result array, element by element, as the two-layer graph convolution with the scaling by
  `dis` applied before and after each sum over incoming edges. Row gathers read the scaled rows at the edges' sources
  (in range by hypothesis, so the padded rows are never read), the scatter-adds sum them at the destinations, each
  pallas_call contributes its row-wise product, and the last host operations scale, add the second bias, clamp at zero
  and drop the 1200 padded rows.
-/
import proofs.«416440_j3178275799146_3_alg».proof.Proof.Gen.KernelIdeal.Frame
import proofs.«416440_j3178275799146_3_alg».proof.Proof.Shared
import proofs.«416440_j3178275799146_3_alg».proof.Proof.Spec
import proofs.«416440_j3178275799146_3_alg».proof.Proof.LibRowGatherScatter
import proofs.«416440_j3178275799146_3_alg».proof.Proof.RegionFinal
import proofs.«416440_j3178275799146_3_alg».proof.Proof.KernelPrefix
import proofs.«416440_j3178275799146_3_alg».proof.Proof.KernelMid
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.ResultValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- A word array named with its shape. -/
abbrev asW (s : Shape) (f : s.Idx → BitVec 32) : s.Idx → BitVec 32 := f
/-- An array of extended reals named with its shape. -/
abbrev asR (s : Shape) (f : s.Idx → EReal) : s.Idx → EReal := f

/-- The source words after the negative-index wrap: a word below zero is moved up by the 51200 rows, any other kept. -/
def wrapV (c : Dev nD) : S850000.Idx → BitVec 32 :=
  select
    (cmpi .slt (asW S850000 (W10 m ρ c (Proc.devRef .tc main_v3))) (broadcastInDim S850000 ![] bcast_S_S850000 (constantI S_ 32 0#32)))
    (addi (asW S850000 (W10 m ρ c (Proc.devRef .tc main_v3))) (broadcastInDim S850000 ![] bcast_S_S850000 (constantI S_ 32 51200#32)))
    (asW S850000 (W10 m ρ c (Proc.devRef .tc main_v3)))

/-- The second call's output rows gathered at the wrapped source words, one row per edge. -/
def gathV (c : Dev nD) : S850000x128.Idx → EReal :=
  Host.gather gather_S51200x128_S850000x1_S850000x128_1_0_n_n_0_1_1128
    (asR S51200x128 (W10 m ρ c (Proc.devRef .tc main_v32)))
    (broadcastInDim S850000x1 ![0] bcast_S850000_S850000x1_0 (wrapV m ρ c))

/-- The gathered rows summed at the destination words into a zero array. -/
def scatV (c : Dev nD) : S51200x128.Idx → EReal :=
  Host.scatterAdd (F := Ideal) (φ := .f32) scatter_S51200x128_S850000x1_S850000x128_1_0_0_1
    (broadcastInDim S51200x128 ![] bcast_S_S51200x128 (constant (F := Ideal) S_ .f32 0x00000000#32))
    (broadcastInDim S850000x1 ![0] bcast_S850000_S850000x1_0 (asW S850000 (W10 m ρ c (Proc.devRef .tc main_v6))))
    (gathV m ρ c)

/-- The last host operations: the scale column times the sums, the second bias added along the rows, the clamp at zero,
    and the first 50000 rows. -/
def outV (c : Dev nD) : S50000x128.Idx → EReal :=
  extractStridedSlice S50000x128 ![0, 0]
    (maximumf (F := Ideal) (φ := .f32)
      (addf (F := Ideal) (φ := .f32)
        (mulf (F := Ideal) (φ := .f32) (scatV m ρ c)
          (broadcastInDim S51200x128 ![0, 1] bcast_S51200x1_S51200x128_0_1 (asR S51200x1 (W10 m ρ c (Proc.devRef .tc main_v19)))))
        (broadcastInDim S51200x128 ![0, 1] bcast_S1x128_S51200x128_0_1
          (shapeCast S1x128 (asR S128 (W10 m ρ c (Proc.devRef .tc main_arg5))) shapeCasts_S128_S1x128)))
      (broadcastInDim S51200x128 ![] bcast_S_S51200x128 (constant (F := Ideal) S_ .f32 0x00000000#32)))
    slices_S51200x128_S50000x128_0_0

/-- The result array at the last boundary, as the last host operations of the arrays the second call leaves. -/
theorem W11_v50 (c : Dev nD) : W11 m ρ c (Proc.devRef .tc main_v50) = outV m ρ c := by
  show StableHlo.after hostOps2 (W10 m ρ c) (Proc.devRef .tc main_v50) = _
  simp only [hostOps2]
  after_results_simp
  rfl

/-! ## The stages at an index -/

/-- A scalar word broadcast along the edges reads the word. -/
theorem bcastW_apply (b : BitVec 32) (e : Fin 850000) :
    broadcastInDim S850000 ![] bcast_S_S850000 (constantI S_ 32 b) (ix1 e) = b := by
  rw [broadcastInDim_scalar_apply]; rfl

/-- The edges' words laid as a column read, at (e, 0), the word of edge `e`. -/
theorem col_apply (v : S850000.Idx → BitVec 32) (e : Fin 850000) :
    broadcastInDim S850000x1 ![0] bcast_S850000_S850000x1_0 v (ix2 e (0 : Fin 1)) = v (ix1 e) :=
  broadcastInDim_apply _ bcast_S850000_S850000x1_0 v (ix2 e (0 : Fin 1)) (ix1 e) (fun a => match a with
    | ⟨0, _⟩ => by show e.val = if (850000 : Nat) = 1 then 0 else e.val; rw [if_neg (by decide)])

/-- A word that reads nonnegative is kept by the wrap. -/
theorem wrapV_apply (c : Dev nD) (e : Fin 850000)
    (h0 : 0 ≤ (asW S850000 (W10 m ρ c (Proc.devRef .tc main_v3)) (ix1 e)).toInt) :
    wrapV m ρ c (ix1 e) = asW S850000 (W10 m ρ c (Proc.devRef .tc main_v3)) (ix1 e) := by
  unfold wrapV
  rw [select_apply]
  have hc : cmpi .slt (asW S850000 (W10 m ρ c (Proc.devRef .tc main_v3)))
      (broadcastInDim S850000 ![] bcast_S_S850000 (constantI S_ 32 0#32)) (ix1 e) = 0#1 := by
    show IntOp.cmpi .slt (asW S850000 (W10 m ρ c (Proc.devRef .tc main_v3)) (ix1 e))
      (broadcastInDim S850000 ![] bcast_S_S850000 (constantI S_ 32 0#32) (ix1 e)) = 0#1
    rw [bcastW_apply]
    show BitVec.ofBool (decide ((asW S850000 (W10 m ρ c (Proc.devRef .tc main_v3)) (ix1 e)).toInt < (0#32 : BitVec 32).toInt)) = 0#1
    rw [show (0#32 : BitVec 32).toInt = 0 from by decide, decide_eq_false (not_lt.mpr h0)]
    rfl
  rw [hc, select_zero]

/-- The gathered row of an edge whose source word reads `r`, a row below 50000: that row of the second call's output. -/
theorem gathV_apply (c : Dev nD) (e : Fin 850000) (q : Fin 128) (r : Fin 50000)
    (h0 : 0 ≤ (asW S850000 (W10 m ρ c (Proc.devRef .tc main_v3)) (ix1 e)).toInt)
    (hr : (asW S850000 (W10 m ρ c (Proc.devRef .tc main_v3)) (ix1 e)).toInt.toNat = r.val) :
    gathV m ρ c (ix2 e q)
      = asR S51200x128 (W10 m ρ c (Proc.devRef .tc main_v32)) (ix2 (Fin.castLE (by decide : 50000 ≤ 51200) r) q) := by
  unfold gathV
  rw [Cert.Gcn.gather_rows (N := 51200) (E := 850000) (C := 128) (w := 32)
    gather_S51200x128_S850000x1_S850000x128_1_0_n_n_0_1_1128 rfl rfl rfl rfl rfl _ _ e q (by decide)]
  refine congrArg (fun t : Fin 51200 => asR S51200x128 (W10 m ρ c (Proc.devRef .tc main_v32)) (ix2 t q)) (Fin.ext ?_)
  show min ((broadcastInDim S850000x1 ![0] bcast_S850000_S850000x1_0 (wrapV m ρ c)) (ix2 e (0 : Fin 1))).toInt.toNat (51200 - 1) = r.val
  rw [col_apply, wrapV_apply m ρ c e h0, hr]
  have := r.isLt
  omega

/-- The sums at a row: the gathered rows of the edges whose destination word reads that row. -/
theorem scatV_apply (c : Dev nD) (i : Fin 51200) (q : Fin 128) :
    scatV m ρ c (ix2 i q)
      = ∑ e ∈ Finset.univ.filter (fun e : Fin 850000 =>
          (asW S850000 (W10 m ρ c (Proc.devRef .tc main_v6)) (ix1 e)).toInt = (i.val : ℤ)), gathV m ρ c (ix2 e q) := by
  unfold scatV
  rw [Cert.Gcn.scatterAdd_rows (N := 51200) (E := 850000) (C := 128) (w := 32)
    scatter_S51200x128_S850000x1_S850000x128_1_0_0_1 rfl rfl rfl rfl]
  rw [broadcastInDim_scalar_apply, constant_apply, Ideal.ofBits_zero_f32, zero_add]
  refine Finset.sum_congr (Finset.filter_congr fun e _ => ?_) fun _ _ => rfl
  rw [col_apply]

/-- The scale column laid along the rows reads, at (r, q), the column at r. -/
theorem colB_apply (v : S51200x1.Idx → EReal) (r : Fin 51200) (q : Fin 128) :
    broadcastInDim S51200x128 ![0, 1] bcast_S51200x1_S51200x128_0_1 v (ix2 r q) = v (ix2 r (0 : Fin 1)) :=
  broadcastInDim_apply _ bcast_S51200x1_S51200x128_0_1 v (ix2 r q) (ix2 r (0 : Fin 1)) (fun a => match a with
    | ⟨0, _⟩ => by show r.val = if (51200 : Nat) = 1 then 0 else r.val; rw [if_neg (by decide)]
    | ⟨1, _⟩ => by show 0 = if (1 : Nat) = 1 then 0 else q.val; rw [if_pos rfl])

/-- A [1 × 128] row laid down the rows reads, at (r, q), the row at q. -/
theorem rowB_apply (v : S1x128.Idx → EReal) (r : Fin 51200) (q : Fin 128) :
    broadcastInDim S51200x128 ![0, 1] bcast_S1x128_S51200x128_0_1 v (ix2 r q) = v (ix2 (0 : Fin 1) q) :=
  broadcastInDim_apply _ bcast_S1x128_S51200x128_0_1 v (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- The result at (i, q), a row below 50000: the sum at the row times the scale, plus the second bias, clamped at zero. -/
theorem outV_apply (c : Dev nD) (i : Fin 50000) (q : Fin 128) :
    outV m ρ c (ix2 i q) =
      max (scatV m ρ c (ix2 (Fin.castLE (by decide : 50000 ≤ 51200) i) q)
            * asR S51200x1 (W10 m ρ c (Proc.devRef .tc main_v19)) (ix2 (Fin.castLE (by decide : 50000 ≤ 51200) i) (0 : Fin 1))
          + asR S128 (W10 m ρ c (Proc.devRef .tc main_arg5)) (ix1 q)) 0 := by
  unfold outV
  rw [slice2_axis0_apply 0 _ slices_S51200x128_S50000x128_0_0 i q (Fin.castLE (by decide : 50000 ≤ 51200) i)
    (by show i.val = 0 + i.val; omega)]
  rw [maximumf_apply, addf_apply, mulf_apply, colB_apply, rowB_apply, shapeCast_a_1a_apply, broadcastInDim_scalar_apply,
    constant_apply, Ideal.ofBits_zero_f32]

/-! ## What the boundary after the second call holds -/

/-- The source words pass the second call unchanged. -/
theorem W10_v3 (c : Dev nD) : asW S850000 (W10 m ρ c (Proc.devRef .tc main_v3)) = Prefix.srcV m c :=
  (W10_of_ne m ρ c main_v3 (by decide)).trans (Mid.W9_v3 m ρ c)

/-- The destination words pass the second call unchanged. -/
theorem W10_v6 (c : Dev nD) : asW S850000 (W10 m ρ c (Proc.devRef .tc main_v6)) = Prefix.dstV m c :=
  (W10_of_ne m ρ c main_v6 (by decide)).trans (Mid.W9_v6 m ρ c)

/-- The second bias passes the second call unchanged. -/
theorem W10_arg5 (c : Dev nD) (q : Fin 128) :
    asR S128 (W10 m ρ c (Proc.devRef .tc main_arg5)) (ix1 q) = (m ((c : Thread nD τ).loc main_arg5) : S128.Idx → EReal) (ix1 q) :=
  congrFun ((W10_of_ne m ρ c main_arg5 (by decide)).trans (Mid.W9_arg5 m ρ c)) (ix1 q)

/-- The scale column is an input of the second call, which leaves it as entered: at a row below 50000 it holds `dis`. -/
theorem W10_v19 (c : Dev nD) (r : Fin 50000) :
    asR S51200x1 (W10 m ρ c (Proc.devRef .tc main_v19)) (ix2 (Fin.castLE (by decide : 50000 ≤ 51200) r) (0 : Fin 1))
      = Prefix.disV m c (ix1 r) := by
  have h : asR S51200x1 (W10 m ρ c (Proc.devRef .tc main_v19)) = asR S51200x1 (W9 m ρ c (Proc.devRef .tc main_v19)) :=
    (W10_arr m ρ c 1).trans (((dat1 (V9 m ρ) c).arrAt_in 1 rfl cfg1.N).trans (A_eq1 (V9 m ρ) c 1))
  rw [h]
  exact Mid.W9_v19 m ρ c r

/-- Row `r` below 50000 of the second call's output: layer two's features of row `r`, scaled by `dis r`. -/
theorem W10_v32 (c : Dev nD)
    (hsrc : ∀ e : Fin 850000, 0 ≤ (Prefix.srcV m c (ix1 e)).toInt ∧ (Prefix.srcV m c (ix1 e)).toInt < 50000)
    (r : Fin 50000) (q : Fin 128) :
    asR S51200x128 (W10 m ρ c (Proc.devRef .tc main_v32)) (ix2 (Fin.castLE (by decide : 50000 ≤ 51200) r) q)
      = Cert.Gcn.scaledLin2 (Mid.xF m c) (Mid.w1F m c) (Mid.b1F m c) (Mid.w2F m c) (Mid.disF m c) (Mid.srcRow m c)
          (Mid.dstW m c) r q := by
  have h0 : asR S51200x128 (W10 m ρ c (Proc.devRef .tc main_v32))
      = RegionFinal.arr2 51200 128 ((dat1 (V9 m ρ) c).arrAt 4 cfg1.N) := W10_arr m ρ c 4
  have hS : RegionFinal.arr2 51200 1 (V9 m ρ c main_v19) (ix2 (Fin.castLE (by decide : 50000 ≤ 51200) r) (0 : Fin 1))
      = Prefix.disV m c (ix1 r) := Mid.W9_v19 m ρ c r
  have hA : ∀ k : Fin 256, RegionFinal.arr2 51200 256 (V9 m ρ c main_v30) (ix2 (Fin.castLE (by decide : 50000 ≤ 51200) r) k)
      = ∑ e ∈ Cert.Gcn.into (Mid.dstW m c) r,
          Cert.Gcn.scaledLin1 (Mid.xF m c) (Mid.w1F m c) (Mid.disF m c) (Mid.srcRow m c e) k :=
    fun k => Mid.W9_v30 m ρ c hsrc r k
  have hB : ∀ k : Fin 256, RegionFinal.arr2 1 256 (V9 m ρ c main_v31) (ix2 (0 : Fin 1) k) = Mid.b1F m c k :=
    fun k => Mid.W9_v31 m ρ c k
  have hW : ∀ k : Fin 256, RegionFinal.arr2 256 128 (V9 m ρ c main_arg4) (ix2 k q) = Mid.w2F m c k q :=
    fun k => congrFun (Mid.W9_arg4 m ρ c) (ix2 k q)
  rw [h0, RegionFinal.final1 (V9 m ρ) c, hS]
  unfold Cert.Gcn.scaledLin2 Cert.Gcn.scaledHid
  refine congrArg (fun z : EReal => z * Prefix.disV m c (ix1 r)) (Finset.sum_congr rfl fun k _ => ?_)
  rw [hA k, hB k, hW k]

/-! ## The result -/

/-- With every source word in `[0, 50000)`, the result array at (i, q) is `Gcn.scaledOut` of the arguments. -/
theorem kernel_value (c : Dev nD)
    (hsrc : ∀ e : Fin 850000, 0 ≤ (Prefix.srcV m c (ix1 e)).toInt ∧ (Prefix.srcV m c (ix1 e)).toInt < 50000)
    (i : Fin 50000) (q : Fin 128) :
    (W11 m ρ c (Proc.devRef .tc main_v50) : S50000x128.Idx → EReal) (ix2 i q) =
      Cert.Gcn.scaledOut
        (fun r j => (m ((c : Thread nD τ).loc main_arg0) : S50000x128.Idx → EReal) (ix2 r j))
        (fun j k => (m ((c : Thread nD τ).loc main_arg2) : S128x256.Idx → EReal) (ix2 j k))
        (fun k => (m ((c : Thread nD τ).loc main_arg3) : S256.Idx → EReal) (ix1 k))
        (fun k q => (m ((c : Thread nD τ).loc main_arg4) : S256x128.Idx → EReal) (ix2 k q))
        (fun q => (m ((c : Thread nD τ).loc main_arg5) : S128.Idx → EReal) (ix1 q))
        (fun r => Prefix.disV m c (ix1 r))
        (fun e => ⟨min (Prefix.srcV m c (ix1 e)).toInt.toNat 49999, by omega⟩)
        (fun e => Prefix.dstV m c (ix1 e)) i q := by
  have hrow : ∀ e : Fin 850000, gathV m ρ c (ix2 e q)
      = Cert.Gcn.scaledLin2 (Mid.xF m c) (Mid.w1F m c) (Mid.b1F m c) (Mid.w2F m c) (Mid.disF m c) (Mid.srcRow m c)
          (Mid.dstW m c) (Mid.srcRow m c e) q := by
    intro e
    have h0 : 0 ≤ (asW S850000 (W10 m ρ c (Proc.devRef .tc main_v3)) (ix1 e)).toInt := by
      rw [W10_v3]; exact (hsrc e).1
    have hr : (asW S850000 (W10 m ρ c (Proc.devRef .tc main_v3)) (ix1 e)).toInt.toNat = (Mid.srcRow m c e).val := by
      rw [W10_v3]
      show _ = min _ 49999
      have := hsrc e
      omega
    rw [gathV_apply m ρ c e q (Mid.srcRow m c e) h0 hr, W10_v32 m ρ c hsrc]
  refine (congrFun (W11_v50 m ρ c) (ix2 i q)).trans ?_
  rw [outV_apply, scatV_apply, W10_v19, W10_arg5, W10_v6]
  unfold Cert.Gcn.scaledOut
  refine congrArg (fun z : EReal => max (z * Prefix.disV m c (ix1 i)
    + (m ((c : Thread nD τ).loc main_arg5) : S128.Idx → EReal) (ix1 q)) 0) ?_
  exact Finset.sum_congr rfl fun e _ => hrow e

end Cert.KernelIdeal.ResultValue

end
-- ==== Proof.RefValue.lean ====
/-
  The idealized reference's result array, element by element, as the two-layer graph convolution with every message
  weighted by `dis (source) * dis (destination)`: both `dis` factors and the feature rows are host gathers (a negative
  index has 50000 added, then the index is read signed and clamped into the table), the sums over incoming edges are
  host scatter-adds, and the rest is read one operation at a time by the generated stage lemmas.
-/
import proofs.«416440_j3178275799146_3_alg».proof.Proof.RefRun
import proofs.«416440_j3178275799146_3_alg».proof.Proof.RefRead
import proofs.«416440_j3178275799146_3_alg».proof.Proof.Shared
import proofs.«416440_j3178275799146_3_alg».proof.Proof.Spec
import proofs.«416440_j3178275799146_3_alg».proof.Proof.LibRowGatherScatter
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ResultValue

open Cert.ReferenceIdeal Cert.ReferenceIdeal.Gen Cert.ReferenceIdeal.ReadP
open Idealize.ShloMosaic Idealize.ShloMosaic.TcCoe Idealize.ShloMosaic.ValueIdx Idealize.SL.Sem

/-! ## Index words and table rows -/

/-- An index word with 50000 added when it reads negative. -/
def wrapW (w : BitVec 32) : BitVec 32 := Scalar.select (IntOp.cmpi .slt w 0#32) (IntOp.addi w 50000#32) w

/-- A word that reads non-negative is left as it is. -/
theorem wrapW_of_nonneg (w : BitVec 32) (h : 0 ≤ w.toInt) : wrapW w = w := by
  unfold wrapW
  have hc : IntOp.cmpi .slt w 0#32 = 0#1 := by
    show BitVec.ofBool (w.slt 0#32) = 0#1
    have hs : w.slt 0#32 = false := by
      unfold BitVec.slt
      rw [decide_eq_false_iff_not, BitVec.toInt_zero]
      omega
    rw [hs]; rfl
  rw [hc, select_zero]

/-- The table row an index word reads: the word read signed and clamped into `[0, 49999]`. -/
def rowOf (w : BitVec 32) : Fin 50000 := ⟨min w.toInt.toNat 49999, by omega⟩

/-- A word that reads `i` reads row `i`, wrapped or not. -/
theorem rowOf_wrapW_of_eq (w : BitVec 32) (i : Fin 50000) (h : w.toInt = (i.val : ℤ)) : rowOf (wrapW w) = i := by
  rw [wrapW_of_nonneg w (by omega)]
  apply Fin.ext
  show min w.toInt.toNat 49999 = i.val
  have := i.isLt
  omega

/-! ## Index equations and the program's gathers and scatters at an element -/

theorem ofFin_eq_ix1 {n : Nat} (p : Fin n) : Shape.Idx.ofFin p = ix1 p := by
  funext a; match a with | ⟨0, _⟩ => rfl

theorem ixP_eq_ix2 {n : Nat} (p : Fin n) : StableHlo.Predicate.ixP p = ix2 p (0 : Fin 1) := by
  funext a; match a with | ⟨0, _⟩ => rfl | ⟨1, _⟩ => rfl

/-- A vector as a column, read at row `e`. -/
theorem col_apply {α : Type} (h : S850000.BroadcastsInDim S850000x1 ![0]) (I : S850000.Idx → α) (e : Fin 850000) :
    broadcastInDim S850000x1 ![0] h I (ix2 e (0 : Fin 1)) = I (ix1 e) := by
  rw [← ixP_eq_ix2, StableHlo.Predicate.bcast_col1, ofFin_eq_ix1]

/-- The program's rank-1 gather at edge `e`: the table at the row the edge's index word reads. -/
theorem take_apply {α : Type} (h : S850000.BroadcastsInDim S850000x1 ![0]) (x : S50000.Idx → α) (I : IVec S850000 32) (e : Fin 850000) :
    Host.gather gather_S50000_S850000x1_S850000_n_0_n_n_0_1_1 x (broadcastInDim S850000x1 ![0] h I) (ix1 e)
      = x (ix1 (rowOf (I (ix1 e)))) := by
  have hc : gather_S50000_S850000x1_S850000_n_0_n_n_0_1_1.collapsedSliceDims = [0] := rfl
  have hb : gather_S50000_S850000x1_S850000_n_0_n_n_0_1_1.operandBatchingDims = [] := rfl
  have hs : gather_S50000_S850000x1_S850000_n_0_n_n_0_1_1.startIndexMap = [0] := rfl
  have hv : gather_S50000_S850000x1_S850000_n_0_n_n_0_1_1.indexVectorDim = 1 := rfl
  have h1 := StableHlo.Predicate.gather_take gather_S50000_S850000x1_S850000_n_0_n_n_0_1_1 hc hb hs hv x
    (broadcastInDim S850000x1 ![0] h I) e (by omega)
  rw [ofFin_eq_ix1 e] at h1
  rw [h1, ofFin_eq_ix1]
  congr 2
  apply Fin.ext
  show min _ (50000 - 1) = min (I (ix1 e)).toInt.toNat 49999
  rw [ixP_eq_ix2, col_apply]

/-- A row gather of the program's shape at (e, q): the table's row the edge's index word reads, at column `q`. -/
theorem rowGather_apply {α : Type} {C : Nat} (d : GatherDims ⟨2, ![50000, C]⟩ S850000x1 ⟨2, ![850000, C]⟩)
    (hoff : d.offsetDims = [1]) (hcoll : d.collapsedSliceDims = [0]) (hob : d.operandBatchingDims = [])
    (hsim : d.startIndexMap = [0]) (hivd : d.indexVectorDim = 1)
    (h : S850000.BroadcastsInDim S850000x1 ![0]) (x : (⟨2, ![50000, C]⟩ : Shape).Idx → α) (I : IVec S850000 32)
    (e : Fin 850000) (q : Fin C) :
    Host.gather d x (broadcastInDim S850000x1 ![0] h I) (ix2 e q) = x (ix2 (rowOf (I (ix1 e))) q) := by
  refine (Cert.Gcn.gather_rows d hoff hcoll hob hsim hivd x _ e q (by omega)).trans (congrArg x ?_)
  congr 1
  apply Fin.ext
  show min _ (50000 - 1) = min (I (ix1 e)).toInt.toNat 49999
  rw [col_apply]

/-- A row scatter-add of the program's shape into zeros at (i, q): the sum of the updates of the edges into `i`. -/
theorem rowScatter_apply {C : Nat} (d : ScatterDims ⟨2, ![50000, C]⟩ S850000x1 ⟨2, ![850000, C]⟩)
    (huw : d.updateWindowDims = [1]) (hiw : d.insertedWindowDims = [0]) (hsd : d.scatterDimsToOperandDims = [0])
    (hivd : d.indexVectorDim = 1)
    (h : S850000.BroadcastsInDim S850000x1 ![0]) (hz : S_.BroadcastsInDim ⟨2, ![50000, C]⟩ ![])
    (D : IVec S850000 32) (upd : (⟨2, ![850000, C]⟩ : Shape).Idx → EReal) (i : Fin 50000) (q : Fin C) :
    (Host.scatterAdd (F := Ideal) (φ := .f32) d (broadcastInDim _ ![] hz (constant (F := Ideal) S_ .f32 0x00000000#32))
        (broadcastInDim S850000x1 ![0] h D) upd : (⟨2, ![50000, C]⟩ : Shape).Idx → EReal) (ix2 i q)
      = ∑ e ∈ Cert.Gcn.into (fun e => D (ix1 e)) i, upd (ix2 e q) := by
  rw [Cert.Gcn.scatterAdd_rows d huw hiw hsd hivd, broadcastInDim_scalar_apply, constant_apply, Ideal.ofBits_zero_f32, zero_add]
  unfold Cert.Gcn.into
  have hc : ∀ e' : Fin 850000, broadcastInDim S850000x1 ![0] h D (ix2 e' (0 : Fin 1)) = D (ix1 e') := fun e' => col_apply h D e'
  simp only [hc]

variable (a0 : FVec Ideal S50000x128 .f32) (a1 : IVec S2x800000 32) (a2 : FVec Ideal S128x256 .f32)
  (a3 : FVec Ideal S256 .f32) (a4 : FVec Ideal S256x128 .f32) (a5 : FVec Ideal S128 .f32)

/-- The edges' source words. -/
abbrev srcV : IVec Cert.Gcn.T850000 32 := Cert.Gcn.endsOf 0 a1 (by decide) (by decide) (by decide)
/-- The edges' destination words. -/
abbrev dstV : IVec Cert.Gcn.T850000 32 := Cert.Gcn.endsOf 1 a1 (by decide) (by decide) (by decide)
/-- `dis` of the edge list. -/
abbrev disV : FVec Ideal Cert.Gcn.T50000 .f32 :=
  Cert.Gcn.disOf (Cert.Gcn.degOf (dstV a1) (by decide) (by decide) (by decide)) (by decide)

/-! ## The prologue's vectors -/

/-- The reference's source words are the shared prologue's. -/
theorem v3_eq : val_main_v3 (F := Ideal) a1 = srcV a1 := rfl
/-- The reference's destination words are the shared prologue's. -/
theorem v6_eq : val_main_v6 (F := Ideal) a1 = dstV a1 := rfl
/-- The reference's `dis` is the shared prologue's. -/
theorem v16_eq : val_main_v16 (F := Ideal) a1 = disV a1 := rfl

/-- Each of the four source index vectors is the source words wrapped. -/
theorem v21_eq : val_main_v21 (F := Ideal) a1 = fun i => wrapW (srcV a1 i) := rfl
theorem v37_eq : val_main_v37 (F := Ideal) a1 = fun i => wrapW (srcV a1 i) := rfl
theorem v54_eq : val_main_v54 (F := Ideal) a1 = fun i => wrapW (srcV a1 i) := rfl
theorem v70_eq : val_main_v70 (F := Ideal) a1 = fun i => wrapW (srcV a1 i) := rfl
/-- Each of the two destination index vectors is the destination words wrapped. -/
theorem v28_eq : val_main_v28 (F := Ideal) a1 = fun i => wrapW (dstV a1 i) := rfl
theorem v61_eq : val_main_v61 (F := Ideal) a1 = fun i => wrapW (dstV a1 i) := rfl

/-- The same, at an index. -/
theorem v37_at (i : S850000.Idx) : val_main_v37 (F := Ideal) a1 i = wrapW (srcV a1 i) := rfl
theorem v70_at (i : S850000.Idx) : val_main_v70 (F := Ideal) a1 i = wrapW (srcV a1 i) := rfl

/-! ## Rows and edge weights -/

/-- The source row of edge `e`: its word read signed and clamped. -/
abbrev sRow (e : Fin 850000) : Fin 50000 := rowOf (srcV a1 (ix1 e))

/-- The row of `dis` the reference reads for edge `e`'s destination: the word, 50000 added when it is negative, read
    signed and clamped into `[0, 49999]`. -/
def dstRow (e : Fin 850000) : Fin 50000 := rowOf (wrapW (dstV a1 (ix1 e)))

/-- On an edge into node `i` that row is `i`. -/
theorem dstRow_of_into (e : Fin 850000) (i : Fin 50000) (h : (dstV a1 (ix1 e)).toInt = (i.val : ℤ)) : dstRow a1 e = i :=
  rowOf_wrapW_of_eq _ i h

/-- A source word in range is not moved by the wrap. -/
theorem wrap_src (hsrc : ∀ e : Fin 850000, 0 ≤ (srcV a1 (ix1 e)).toInt ∧ (srcV a1 (ix1 e)).toInt < 50000) (e : Fin 850000) :
    wrapW (srcV a1 (ix1 e)) = srcV a1 (ix1 e) := wrapW_of_nonneg _ (hsrc e).1

/-- Layer one's edge weight: `dis` at the source row times `dis` at the destination row. -/
theorem v31_apply (e : Fin 850000) :
    val_main_v31 (F := Ideal) a1 (ix1 e) = disV a1 (ix1 (rowOf (wrapW (srcV a1 (ix1 e))))) * disV a1 (ix1 (dstRow a1 e)) := by
  rw [val_main_v31_apply]
  unfold val_main_v23 val_main_v30 val_main_v22 val_main_v29
  rw [take_apply, take_apply, v16_eq, v21_eq, v28_eq]
  rfl

/-- Layer two's edge weight, the same. -/
theorem v64_apply (e : Fin 850000) :
    val_main_v64 (F := Ideal) a1 (ix1 e) = disV a1 (ix1 (rowOf (wrapW (srcV a1 (ix1 e))))) * disV a1 (ix1 (dstRow a1 e)) := by
  rw [val_main_v64_apply]
  unfold val_main_v56 val_main_v63 val_main_v55 val_main_v62
  rw [take_apply, take_apply, v16_eq, v54_eq, v61_eq]
  rfl

/-! ## Layer one -/

/-- Layer one's features at (r, k). -/
theorem v32_apply (r : Fin 50000) (k : Fin 256) :
    val_main_v32 (F := Ideal) a0 a2 (ix2 r k) = ∑ j : Fin 128, a0 (ix2 r j) * a2 (ix2 j k) := by
  rw [val_main_v32_apply]
  refine Finset.sum_congr rfl fun j _ => ?_
  have el : lidx_main_v32 (ix2 r k) j = ix2 r j :=
    funext fun a => Fin.ext (by match a with | ⟨0, _⟩ => rfl | ⟨1, _⟩ => rfl)
  have er : ridx_main_v32 (ix2 r k) j = ix2 j k :=
    funext fun a => Fin.ext (by match a with | ⟨0, _⟩ => rfl | ⟨1, _⟩ => rfl)
  rw [el, er]

/-- Layer one's message of edge `e` at column `k`. -/
theorem v42_apply (hsrc : ∀ e : Fin 850000, 0 ≤ (srcV a1 (ix1 e)).toInt ∧ (srcV a1 (ix1 e)).toInt < 50000)
    (e : Fin 850000) (k : Fin 256) :
    val_main_v42 (F := Ideal) a0 a1 a2 (ix2 e k)
      = (∑ j : Fin 128, a0 (ix2 (sRow a1 e) j) * a2 (ix2 j k)) * (disV a1 (ix1 (sRow a1 e)) * disV a1 (ix1 (dstRow a1 e))) := by
  have hoff : gather_S50000x256_S850000x1_S850000x256_1_0_n_n_0_1_1256.offsetDims = [1] := rfl
  have hcoll : gather_S50000x256_S850000x1_S850000x256_1_0_n_n_0_1_1256.collapsedSliceDims = [0] := rfl
  have hob : gather_S50000x256_S850000x1_S850000x256_1_0_n_n_0_1_1256.operandBatchingDims = [] := rfl
  have hsim : gather_S50000x256_S850000x1_S850000x256_1_0_n_n_0_1_1256.startIndexMap = [0] := rfl
  have hivd : gather_S50000x256_S850000x1_S850000x256_1_0_n_n_0_1_1256.indexVectorDim = 1 := rfl
  have ei : idx_main_v40 (idx_main_v41 (ix2 e k)) = ix1 e :=
    funext fun a => Fin.ext (by match a with | ⟨0, _⟩ => rfl)
  rw [val_main_v42_apply, val_main_v41_apply, val_main_v40_apply, ei, v31_apply]
  unfold val_main_v39 val_main_v38
  rw [rowGather_apply _ hoff hcoll hob hsim hivd, v37_at, wrap_src a1 hsrc e, v32_apply]
  rfl

/-- Layer one's activation is `Gcn.edgeHid` of the arguments. -/
theorem hid_apply (hsrc : ∀ e : Fin 850000, 0 ≤ (srcV a1 (ix1 e)).toInt ∧ (srcV a1 (ix1 e)).toInt < 50000)
    (r : Fin 50000) (k : Fin 256) :
    val_main_v49 (F := Ideal) a0 a1 a2 a3 (ix2 r k) =
      Cert.Gcn.edgeHid (fun r j => a0 (ix2 r j)) (fun j k => a2 (ix2 j k)) (fun k => a3 (ix1 k)) (fun r => disV a1 (ix1 r))
        (sRow a1) (fun e => dstV a1 (ix1 e)) (dstRow a1) r k := by
  have huw : scatter_S50000x256_S850000x1_S850000x256_1_0_0_1.updateWindowDims = [1] := rfl
  have hiw : scatter_S50000x256_S850000x1_S850000x256_1_0_0_1.insertedWindowDims = [0] := rfl
  have hsd : scatter_S50000x256_S850000x1_S850000x256_1_0_0_1.scatterDimsToOperandDims = [0] := rfl
  have hivd : scatter_S50000x256_S850000x1_S850000x256_1_0_0_1.indexVectorDim = 1 := rfl
  have eb : idx_main_v46 (idx_main_v47 (ix2 r k)) = ix1 k :=
    funext fun a => Fin.ext (by match a with | ⟨0, _⟩ => rfl)
  rw [val_main_v49_apply, val_main_v48_apply, val_main_call1_v0_apply, val_main_call1_cst_apply, val_main_v47_apply,
    val_main_v46_apply, eb]
  unfold val_main_v45 val_main_v43 val_main_v44 val_main_cst_9
  rw [rowScatter_apply _ huw hiw hsd hivd, v6_eq]
  simp only [v42_apply a0 a1 a2 hsrc]
  unfold Cert.Gcn.edgeHid
  simp only [Ideal.ofBits_def, Ideal.ofBits_zero_f32, Ideal.maximumf_def, Ideal.addf_def]

/-! ## Layer two -/

/-- Layer two's features at (r, q). -/
theorem v65_apply (hsrc : ∀ e : Fin 850000, 0 ≤ (srcV a1 (ix1 e)).toInt ∧ (srcV a1 (ix1 e)).toInt < 50000)
    (r : Fin 50000) (q : Fin 128) :
    val_main_v65 (F := Ideal) a0 a1 a2 a3 a4 (ix2 r q) =
      ∑ k : Fin 256, Cert.Gcn.edgeHid (fun r j => a0 (ix2 r j)) (fun j k => a2 (ix2 j k)) (fun k => a3 (ix1 k))
        (fun r => disV a1 (ix1 r)) (sRow a1) (fun e => dstV a1 (ix1 e)) (dstRow a1) r k * a4 (ix2 k q) := by
  rw [val_main_v65_apply]
  refine Finset.sum_congr rfl fun k _ => ?_
  have el : lidx_main_v65 (ix2 r q) k = ix2 r k :=
    funext fun a => Fin.ext (by match a with | ⟨0, _⟩ => rfl | ⟨1, _⟩ => rfl)
  have er : ridx_main_v65 (ix2 r q) k = ix2 k q :=
    funext fun a => Fin.ext (by match a with | ⟨0, _⟩ => rfl | ⟨1, _⟩ => rfl)
  rw [el, er, hid_apply a0 a1 a2 a3 hsrc]

/-- Layer two's message of edge `e` at column `q`. -/
theorem v75_apply (hsrc : ∀ e : Fin 850000, 0 ≤ (srcV a1 (ix1 e)).toInt ∧ (srcV a1 (ix1 e)).toInt < 50000)
    (e : Fin 850000) (q : Fin 128) :
    val_main_v75 (F := Ideal) a0 a1 a2 a3 a4 (ix2 e q)
      = (∑ k : Fin 256, Cert.Gcn.edgeHid (fun r j => a0 (ix2 r j)) (fun j k => a2 (ix2 j k)) (fun k => a3 (ix1 k))
          (fun r => disV a1 (ix1 r)) (sRow a1) (fun e => dstV a1 (ix1 e)) (dstRow a1) (sRow a1 e) k * a4 (ix2 k q))
        * (disV a1 (ix1 (sRow a1 e)) * disV a1 (ix1 (dstRow a1 e))) := by
  have hoff : gather_S50000x128_S850000x1_S850000x128_1_0_n_n_0_1_1128.offsetDims = [1] := rfl
  have hcoll : gather_S50000x128_S850000x1_S850000x128_1_0_n_n_0_1_1128.collapsedSliceDims = [0] := rfl
  have hob : gather_S50000x128_S850000x1_S850000x128_1_0_n_n_0_1_1128.operandBatchingDims = [] := rfl
  have hsim : gather_S50000x128_S850000x1_S850000x128_1_0_n_n_0_1_1128.startIndexMap = [0] := rfl
  have hivd : gather_S50000x128_S850000x1_S850000x128_1_0_n_n_0_1_1128.indexVectorDim = 1 := rfl
  have ei : idx_main_v73 (idx_main_v74 (ix2 e q)) = ix1 e :=
    funext fun a => Fin.ext (by match a with | ⟨0, _⟩ => rfl)
  rw [val_main_v75_apply, val_main_v74_apply, val_main_v73_apply, ei, v64_apply]
  unfold val_main_v72 val_main_v71
  rw [rowGather_apply _ hoff hcoll hob hsim hivd, v70_at, wrap_src a1 hsrc e, v65_apply a0 a1 a2 a3 a4 hsrc]
  rfl

/-- With every source word in `[0, 50000)`, the result at (i, q) is `Gcn.edgeOut` of the arguments. -/
theorem reference_value
    (hsrc : ∀ e : Fin 850000, 0 ≤ (srcV a1 (ix1 e)).toInt ∧ (srcV a1 (ix1 e)).toInt < 50000)
    (i : Fin 50000) (q : Fin 128) :
    (val_main_v82 (F := Ideal) a0 a1 a2 a3 a4 a5 : S50000x128.Idx → EReal) (ix2 i q) =
      Cert.Gcn.edgeOut (fun r j => a0 (ix2 r j)) (fun j k => a2 (ix2 j k)) (fun k => a3 (ix1 k)) (fun k q => a4 (ix2 k q))
        (fun q => a5 (ix1 q)) (fun r => disV a1 (ix1 r))
        (fun e => ⟨min (srcV a1 (ix1 e)).toInt.toNat 49999, by omega⟩) (fun e => dstV a1 (ix1 e)) (dstRow a1) i q := by
  have huw : scatter_S50000x128_S850000x1_S850000x128_1_0_0_1.updateWindowDims = [1] := rfl
  have hiw : scatter_S50000x128_S850000x1_S850000x128_1_0_0_1.insertedWindowDims = [0] := rfl
  have hsd : scatter_S50000x128_S850000x1_S850000x128_1_0_0_1.scatterDimsToOperandDims = [0] := rfl
  have hivd : scatter_S50000x128_S850000x1_S850000x128_1_0_0_1.indexVectorDim = 1 := rfl
  have eb : idx_main_v79 (idx_main_v80 (ix2 i q)) = ix1 q :=
    funext fun a => Fin.ext (by match a with | ⟨0, _⟩ => rfl)
  show _ = Cert.Gcn.edgeOut (fun r j => a0 (ix2 r j)) (fun j k => a2 (ix2 j k)) (fun k => a3 (ix1 k)) (fun k q => a4 (ix2 k q))
        (fun q => a5 (ix1 q)) (fun r => disV a1 (ix1 r)) (sRow a1) (fun e => dstV a1 (ix1 e)) (dstRow a1) i q
  rw [val_main_v82_apply, val_main_v81_apply, val_main_call2_v0_apply, val_main_call2_cst_apply, val_main_v80_apply,
    val_main_v79_apply, eb]
  unfold val_main_v78 val_main_v76 val_main_v77 val_main_cst_16
  rw [rowScatter_apply _ huw hiw hsd hivd, v6_eq]
  simp only [v75_apply a0 a1 a2 a3 a4 hsrc]
  unfold Cert.Gcn.edgeOut
  simp only [Ideal.ofBits_def, Ideal.ofBits_zero_f32, Ideal.maximumf_def, Ideal.addf_def]

end Cert.ReferenceIdeal.ResultValue

end
-- ==== Proof.lean ====
/-
  The certificate of a two-layer graph convolution with symmetric normalisation: the kernel program (two pallas_calls
  among host gathers and scatter-adds over rows padded to 51200) against its jnp reference, over the extended reals.

  The three frames: both kernel programs run and leave their arguments unchanged (the generated frame certificates);
  the reference's frame is its run with the result dropped. The idealization rewrote nothing, so that conjunct is trivial.

  The equivalence: under the precondition every feature, weight and first-bias entry is a real number and every source
  word of the edge list lies in [0, 50000). The kernel's result at node i, column q is the convolution with the scaling
  by dis applied to each source row before the sum over the edges into i and to the sum afterwards
  (KernelValue.lean); the reference's is the same convolution with every message weighted by
  dis (source) * dis (destination) (RefValue.lean). On an edge into i the destination factor is dis i, and a finite sum
  of reals distributes over a real factor (Spec.lean), so the two agree element by element.
-/
import proofs.«416440_j3178275799146_3_alg».proof.Defs
import proofs.«416440_j3178275799146_3_alg».proof.Proof.Gen.Kernel
import proofs.«416440_j3178275799146_3_alg».proof.Proof.Gen.Kernel.Frame
import proofs.«416440_j3178275799146_3_alg».proof.Proof.Gen.KernelIdeal
import proofs.«416440_j3178275799146_3_alg».proof.Proof.Gen.KernelIdeal.Frame
import proofs.«416440_j3178275799146_3_alg».proof.Proof.Gen.ReferenceIdeal
import proofs.«416440_j3178275799146_3_alg».proof.Proof.RefRun
import proofs.«416440_j3178275799146_3_alg».proof.Proof.RefRead
import proofs.«416440_j3178275799146_3_alg».proof.Proof.Gen.Pre_finite_inputs
import proofs.«416440_j3178275799146_3_alg».proof.Proof.Spec
import proofs.«416440_j3178275799146_3_alg».proof.Proof.Shared
import proofs.«416440_j3178275799146_3_alg».proof.Proof.PreFacts
import proofs.«416440_j3178275799146_3_alg».proof.Proof.KernelRun
import proofs.«416440_j3178275799146_3_alg».proof.Proof.KernelValue
import proofs.«416440_j3178275799146_3_alg».proof.Proof.RefValue
import Idealize.ShloMosaic.Adequacy
import Idealize.ShloMosaic.Init
import Idealize.ShloMosaic.Lib.ValueIdx

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with one result: node i, column q of the two-layer convolution, the kernel's arrangement
    and the reference's being equal for finite data and in-range sources. -/
theorem algebraic : Cert.algebraic_KernelIdeal_ReferenceIdeal := by
  intro m ρ m' ρ' hpre hagree
  refine ⟨fun c => Cert.KernelIdeal.Gen.W11 m ρ c (Proc.devRef .tc Cert.KernelIdeal.main_v50),
    Cert.KernelIdeal.ValueRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v82_eq, e0, e1, e2, e3, e4, e5]
  obtain ⟨f0, f2, f3, f4, hrow⟩ := Cert.Gcn.PreFacts.of_pre _ _ _ _ _ _ (hpre c)
  have hsrc := Cert.Gcn.PreFacts.src_range _ hrow (by decide) (by decide) (by decide)
  funext idx
  obtain ⟨i, q, rfl⟩ : ∃ (i : Fin 50000) (q : Fin 128), idx = ix2 i q := ⟨idx 0, idx 1, eq_ix2 idx⟩
  rw [Cert.ReferenceIdeal.ResultValue.reference_value _ _ _ _ _ _ hsrc i q]
  refine ((Cert.KernelIdeal.ResultValue.kernel_value m ρ c hsrc i q).trans ?_).symm
  exact Cert.Gcn.scaledOut_eq_edgeOut _ _ _ _ _ _ _ _ _ (fun r j => f0 _) (fun j k => f2 _) (fun k => f3 _) (fun k q => f4 _)
    (fun r => Cert.Gcn.disOf_finite _ _ r) (fun e i' h => Cert.ReferenceIdeal.ResultValue.dstRow_of_into _ e i' h) i q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
